-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x2048x2048 : Shape := ⟨3, ![8, 2048, 2048]⟩
abbrev S256x256 : Shape := ⟨2, ![256, 256]⟩
abbrev S2x256 : Shape := ⟨2, ![2, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S2x256 : S_.BroadcastsInDim S2x256 (![] : Fin 0 → Fin S2x256.rank)
  reducesTo_S2x256_S_d0_1 : S2x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8x2048x256 .f32) (main_arg1 : IVec S8x2048x2048 32) (main_arg2 : FVec F S256x256 .f32) (main_arg3 : FVec F S2x256 .f32) (main_arg4 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S2x256 .f32 := Host.absf main_arg3
  let main_cst_2 : FVec F S_ .f32 := constant S_ .f32 0x7F800000#32
  let main_v10 : FVec F S2x256 .f32 := broadcastInDim S2x256 ![] bcast_S_S2x256 main_cst_2
  let main_v11 : IVec S2x256 1 := cmpf .olt main_v9 main_v10
  let main_c_3 : IVec S_ 1 := constantI S_ 1 1#1
  let main_v12 : IVec S_ 1 := (fun x v => Host.reduce IntOp.andi x v reducesTo_S2x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8x2048x256 : Shape := ⟨3, ![8, 2048, 256]⟩
abbrev S8x2048x2048 : Shape := ⟨3, ![8, 2048, 2048]⟩
abbrev S256x256 : Shape := ⟨2, ![256, 256]⟩
abbrev S2x256 : Shape := ⟨2, ![2, 256]⟩
abbrev S256 : Shape := ⟨1, ![256]⟩
abbrev S1x2048x256 : Shape := ⟨3, ![1, 2048, 256]⟩
abbrev S1x512x2048 : Shape := ⟨3, ![1, 512, 2048]⟩
abbrev S1x512x256 : Shape := ⟨3, ![1, 512, 256]⟩
abbrev S2048x256 : Shape := ⟨2, ![2048, 256]⟩
abbrev S2048x1 : Shape := ⟨2, ![2048, 1]⟩
abbrev S1x2048 : Shape := ⟨2, ![1, 2048]⟩
abbrev S1x256 : Shape := ⟨2, ![1, 256]⟩
abbrev S512x1 : Shape := ⟨2, ![512, 1]⟩
abbrev S512x2048 : Shape := ⟨2, ![512, 2048]⟩
abbrev S512 : Shape := ⟨1, ![512]⟩
abbrev S512x256 : Shape := ⟨2, ![512, 256]⟩

abbrev nBuf : Space → Nat
  | .hbm => 6
  | .vmem => 12
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .i32⟩
  | .hbm, ⟨2, _⟩ => ⟨S256x256, .f32⟩
  | .hbm, ⟨3, _⟩ => ⟨S2x256, .f32⟩
  | .hbm, ⟨4, _⟩ => ⟨S256, .f32⟩
  | .hbm, ⟨5, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S256x256, .f32⟩
  | .local _ .vmem, ⟨3, _⟩ => ⟨S2x256, .f32⟩
  | .local _ .vmem, ⟨4, _⟩ => ⟨S1x512x2048, .i32⟩
  | .local _ .vmem, ⟨5, _⟩ => ⟨S1x512x2048, .i32⟩
  | .local _ .vmem, ⟨6, _⟩ => ⟨S256, .f32⟩
  | .local _ .vmem, ⟨7, _⟩ => ⟨S1x512x256, .f32⟩
  | .local _ .vmem, ⟨8, _⟩ => ⟨S1x512x256, .f32⟩
  | .local _ .vmem, ⟨9, _⟩ => ⟨S2048x256, .bf16⟩
  | .local _ .vmem, ⟨10, _⟩ => ⟨S2048x1, .f32⟩
  | .local _ .vmem, ⟨11, _⟩ => ⟨S1x2048, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  inb_S2x256_S2x256_0_0 : ∀ a, (![0, 0] : Fin 2 → Nat) a + S2x256.size a ≤ S2x256.size a
  h_S2x256 : 0 < S2x256.numel
  slices_S2x256_o0_0_S1x256 : S2x256.Slices ![0, 0] S1x256
  slices_S2x256_o1_0_S1x256 : S2x256.Slices ![1, 0] S1x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  h_S512x1 : 0 < S512x1.numel
  broadcasts_S512x1_S512x2048 : S512x1.Broadcasts S512x2048
  broadcasts_S1x2048_S512x2048 : S1x2048.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x256 : S512x1.Broadcasts S512x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  dot_S2048x256_S256x256_S2048x256_1_1_0_0_n_n_wf : DotDims.WF S2048x256 S256x256 S2048x256 [1] [1] [0] [0] [] []
  dot_S2048x256_S1x256_S2048x1_1_1_0_0_n_n_wf : DotDims.WF S2048x256 S1x256 S2048x1 [1] [1] [0] [0] [] []
  dot_S1x256_S2048x256_S1x2048_1_1_0_0_n_n_wf : DotDims.WF S1x256 S2048x256 S1x2048 [1] [1] [0] [0] [] []
  dot_S512x2048_S2048x256_S512x256_1_0_0_1_n_n_wf : DotDims.WF S512x2048 S2048x256 S512x256 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x1.size a ≤ S2048x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x256.size a ≤ S2x256.size a
  hwx0_2 : ∀ i : grid0.Coords, EltTy.bits .f32 = 32 ∨ (Rect.block (s := S2x256) S2x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .i32 = 32 ∨ (Rect.block (s := S8x2048x2048) S1x512x2048.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x256.size a ≤ S8x2048x256.size a
  hwx0_5 : ∀ i : grid0.Coords, EltTy.bits .f32 = 32 ∨ (Rect.block (s := S8x2048x256) S1x512x256.size (cc0_transform_5 i) (hinb0_5 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S2048x256_S1x256_S2048x1_1_1_0_0_n_n : DotDims S2048x256 S1x256 S2048x1 where
  lhsContracting := [1]
  rhsContracting := [1]
  lhsNonContracting := [0]
  rhsNonContracting := [0]
  lhsBatch := []
  rhsBatch := []
  wf := dot_S2048x256_S1x256_S2048x1_1_1_0_0_n_n_wf
def dot_S1x256_S2048x256_S1x2048_1_1_0_0_n_n : DotDims S1x256 S2048x256 S1x2048 where
  lhsContracting := [1]
  rhsContracting := [1]
  lhsNonContracting := [0]
  rhsNonContracting := [0]
  lhsBatch := []
  rhsBatch := []
  wf := dot_S1x256_S2048x256_S1x2048_1_1_0_0_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S256x256 : Shape := ⟨2, ![256, 256]⟩
abbrev S2x256 : Shape := ⟨2, ![2, 256]⟩
abbrev S256 : Shape := ⟨1, ![256]⟩
abbrev S8x2048x2 : Shape := ⟨3, ![8, 2048, 2]⟩
abbrev S8x2048x1 : Shape := ⟨3, ![8, 2048, 1]⟩
abbrev S8x2048 : Shape := ⟨2, ![8, 2048]⟩
abbrev S8x1x2048 : Shape := ⟨3, ![8, 1, 2048]⟩
abbrev S_ : Shape := ⟨0, ![]⟩
abbrev S1x1x256 : Shape := ⟨3, ![1, 1, 256]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .i32⟩
  | .hbm, ⟨2, _⟩ => ⟨S256x256, .f32⟩
  | .hbm, ⟨3, _⟩ => ⟨S2x256, .f32⟩
  | .hbm, ⟨4, _⟩ => ⟨S256, .f32⟩
  | .hbm, ⟨5, _⟩ => ⟨S8x2048x256, .f32⟩
  | .hbm, ⟨6, _⟩ => ⟨S8x2048x2, .f32⟩
  | .hbm, ⟨7, _⟩ => ⟨S8x2048x1, .f32⟩
  | .hbm, ⟨8, _⟩ => ⟨S8x2048, .f32⟩
  | .hbm, ⟨9, _⟩ => ⟨S8x2048x1, .f32⟩
  | .hbm, ⟨10, _⟩ => ⟨S8x2048, .f32⟩
  | .hbm, ⟨11, _⟩ => ⟨S8x2048x1, .f32⟩
  | .hbm, ⟨12, _⟩ => ⟨S8x1x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S_, .f32⟩
  | .hbm, ⟨18, _⟩ => ⟨S8x2048x2048, .f32⟩
  | .hbm, ⟨19, _⟩ => ⟨S8x2048x2048, .i1⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S_, .i32⟩
  | .hbm, ⟨25, _⟩ => ⟨S8x2048x2048, .i32⟩
  | .hbm, ⟨26, _⟩ => ⟨S8x2048x2048, .i1⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048, .f32⟩
  | .hbm, ⟨33, _⟩ => ⟨S_, .f32⟩
  | .hbm, ⟨34, _⟩ => ⟨S8x2048, .f32⟩
  | .hbm, ⟨35, _⟩ => ⟨S8x2048, .f32⟩
  | .hbm, ⟨36, _⟩ => ⟨S8x2048x1, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x256, .f32⟩
  | .hbm, ⟨46, _⟩ => ⟨S1x1x256, .f32⟩
  | .hbm, ⟨47, _⟩ => ⟨S8x2048x256, .f32⟩
  | .hbm, ⟨48, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]

class Facts₀ : Prop where
  slices_S8x2048x2_S8x2048x1_0_0_0 : S8x2048x2.Slices ![0, 0, 0] S8x2048x1
  shapeCasts_S8x2048x1_S8x2048 : S8x2048x1.ShapeCasts S8x2048
  slices_S8x2048x2_S8x2048x1_0_0_1 : S8x2048x2.Slices ![0, 0, 1] S8x2048x1
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  dot_S8x2048x256_S256x256_S8x2048x256_2_1_01_0_n_n_wf : DotDims.WF S8x2048x256 S256x256 S8x2048x256 [2] [1] [0, 1] [0] [] []
  dot_S8x2048x256_S2x256_S8x2048x2_2_1_01_0_n_n_wf : DotDims.WF S8x2048x256 S2x256 S8x2048x2 [2] [1] [0, 1] [0] [] []
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x256_S2x256_S8x2048x2_2_1_01_0_n_n : DotDims S8x2048x256 S2x256 S8x2048x2 where
  lhsContracting := [2]
  rhsContracting := [1]
  lhsNonContracting := [0, 1]
  rhsNonContracting := [0]
  lhsBatch := []
  rhsBatch := []
  wf := dot_S8x2048x256_S2x256_S8x2048x2_2_1_01_0_n_n_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.KPieces.lean ====
/-
  What the kernel body leaves, case by case, as values: at a batch's first query tile the three cached arrays (the
  projected features, the column of query scores, the row of key scores) and the tile's output block; at a later
  tile the output block over what was cached.  Each is the body's arithmetic applied to the blocks it loads.
-/
import proofs.«424068_j66374424592902_3_alg».proof.Proof.Gen.KernelIdeal.Frame
import Idealize.ShloMosaic.Lib.Pipeline.Value
import Idealize.ShloMosaic.Lib.Tactic

set_option maxRecDepth 16384

noncomputable section

namespace Cert.KernelIdeal.KPieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

/-- The rows of the column of query scores that the tile at grid point i reads. -/
abbrev tileRows (i : grid0.Coords) : Rect S2048x1 := Rect.unit (s := S2048x1) (k0_off1 i) S512x1.size (k0_off1_inb i)

/-- At a batch's first tile the cached features are the projection of the batch's block of x by W. -/
theorem sout_A_0 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S2x256 .f32) (harg4 : arg4.IsWhole) (arg5 : Memref sig .tc .vmem S1x512x2048 .i32) (harg5 : arg5.IsWhole) (arg6 : Memref sig .tc .vmem S256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x1 .f32) (harg9 : arg9.IsWhole) (arg10 : Memref sig .tc .vmem S1x2048 .f32) (harg10 : arg10.IsWhole) (hc0 : cond0_0 i) (x0 : Vec F S1x2048x256 .f32) (x1 : Vec F S256x256 .f32) (x2 : Vec F S2x256 .f32) (x3 : Vec F S1x512x2048 .i32) (x4 : Vec F S256 .f32) :
    sout0_A_0 c i arg2 harg2 arg3 harg3 arg4 harg4 arg5 harg5 arg6 harg6 arg7 harg7 arg8 harg8 arg9 harg9 arg10 harg10 hc0 x0 x1 x2 x3 x4 = k0_pay3 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_unit_zero hz2]
  simp only [View.readAt_eq_ld, harg2.read_unread, harg3.read_unread, View.ld_unit_zero (S := S1x2048x256) hz3, View.ld_unit_zero (S := S256x256) hz2]

/-- ... the cached column of query scores is the projection against row 0 of a, -/
theorem sout_A_1 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S2x256 .f32) (harg4 : arg4.IsWhole) (arg5 : Memref sig .tc .vmem S1x512x2048 .i32) (harg5 : arg5.IsWhole) (arg6 : Memref sig .tc .vmem S256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x1 .f32) (harg9 : arg9.IsWhole) (arg10 : Memref sig .tc .vmem S1x2048 .f32) (harg10 : arg10.IsWhole) (hc0 : cond0_0 i) (x0 : Vec F S1x2048x256 .f32) (x1 : Vec F S256x256 .f32) (x2 : Vec F S2x256 .f32) (x3 : Vec F S1x512x2048 .i32) (x4 : Vec F S256 .f32) :
    sout0_A_1 c i arg2 harg2 arg3 harg3 arg4 harg4 arg5 harg5 arg6 harg6 arg7 harg7 arg8 harg8 arg9 harg9 arg10 harg10 hc0 x0 x1 x2 x3 x4 = k0_pay4 x0 x1 x2 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_unit_zero hz2]
  simp only [View.readAt_eq_ld, harg2.read_unread, harg3.read_unread, harg4.read_unread, View.ld_unit_zero (S := S1x2048x256) hz3, View.ld_unit_zero (S := S256x256) hz2, View.ld_unit_zero (S := S2x256) hz2]

/-- ... and the cached row of key scores the projection against row 1 of a. -/
theorem sout_A_2 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S2x256 .f32) (harg4 : arg4.IsWhole) (arg5 : Memref sig .tc .vmem S1x512x2048 .i32) (harg5 : arg5.IsWhole) (arg6 : Memref sig .tc .vmem S256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x1 .f32) (harg9 : arg9.IsWhole) (arg10 : Memref sig .tc .vmem S1x2048 .f32) (harg10 : arg10.IsWhole) (hc0 : cond0_0 i) (x0 : Vec F S1x2048x256 .f32) (x1 : Vec F S256x256 .f32) (x2 : Vec F S2x256 .f32) (x3 : Vec F S1x512x2048 .i32) (x4 : Vec F S256 .f32) :
    sout0_A_2 c i arg2 harg2 arg3 harg3 arg4 harg4 arg5 harg5 arg6 harg6 arg7 harg7 arg8 harg8 arg9 harg9 arg10 harg10 hc0 x0 x1 x2 x3 x4 = k0_pay5 x0 x1 x2 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_unit_zero hz2]
  simp only [View.readAt_eq_ld, harg2.read_unread, harg3.read_unread, harg4.read_unread, View.ld_unit_zero (S := S1x2048x256) hz3, View.ld_unit_zero (S := S256x256) hz2, View.ld_unit_zero (S := S2x256) hz2]

/-- The output block of a batch's first tile: the tile's arithmetic over the scores and features just cached. -/
theorem out_A_5 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S2x256 .f32) (harg4 : arg4.IsWhole) (arg5 : Memref sig .tc .vmem S1x512x2048 .i32) (harg5 : arg5.IsWhole) (arg6 : Memref sig .tc .vmem S256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x1 .f32) (harg9 : arg9.IsWhole) (arg10 : Memref sig .tc .vmem S1x2048 .f32) (harg10 : arg10.IsWhole) (hc0 : cond0_0 i) (x0 : Vec F S1x2048x256 .f32) (x1 : Vec F S256x256 .f32) (x2 : Vec F S2x256 .f32) (x3 : Vec F S1x512x2048 .i32) (x4 : Vec F S256 .f32) :
    out0_A_5 c i arg2 harg2 arg3 harg3 arg4 harg4 arg5 harg5 arg6 harg6 arg7 harg7 arg8 harg8 arg9 harg9 arg10 harg10 hc0 x0 x1 x2 x3 x4
      = k0_pay1 (k0_pay6 (View.ld (k0_pay4 x0 x1 x2) (tileRows i)) (k0_pay5 x0 x1 x2) x3 (k0_pay3 x0 x1)) x4 := by
  unfold out0_A_5
  rw [View.read_writes_eq_canon _ _ _ (cover0_A_5 c i arg2 harg2 arg3 harg3 arg4 harg4 arg5 harg5 arg6 harg6 arg7 harg7 arg8 harg8 arg9 harg9 arg10 harg10 hc0 x0 x1 x2 x3 x4)]
  unfold kernelRun0_A
  dsimp only
  sl_unfold_words
  rw [View.canon_unit_zero hz3]
  simp only [View.readAt_writes_junk_eq_canon, View.canon_unit_zero (S := S2048x1) hz2, View.readCov_unit_zero (S := S1x2048) _ hz2, View.readCov_unit_zero (S := S2048x256) _ hz2,
    View.readAt_eq_ld, harg2.read_unread, harg3.read_unread, harg4.read_unread, harg5.read_unread, harg6.read_unread,
    View.ld_unit_zero (S := S1x2048x256) hz3, View.ld_unit_zero (S := S256x256) hz2, View.ld_unit_zero (S := S2x256) hz2,
    View.ld_unit_zero (S := S1x512x2048) hz3, View.ld_unit_zero (S := S256) hz1]
  rfl

/-- The output block of a later tile: the same arithmetic over the scores and features the batch's first tile cached. -/
theorem out_B_5 (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S2x256 .f32) (harg4 : arg4.IsWhole) (arg5 : Memref sig .tc .vmem S1x512x2048 .i32) (harg5 : arg5.IsWhole) (arg6 : Memref sig .tc .vmem S256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x1 .f32) (harg9 : arg9.IsWhole) (arg10 : Memref sig .tc .vmem S1x2048 .f32) (harg10 : arg10.IsWhole) (hc0 : ¬cond0_0 i) (x0 : Vec F S1x2048x256 .f32) (x1 : Vec F S256x256 .f32) (x2 : Vec F S2x256 .f32) (x3 : Vec F S1x512x2048 .i32) (x4 : Vec F S256 .f32) (xs0 : Vec F S2048x256 .bf16) (xs1 : Vec F S2048x1 .f32) (xs2 : Vec F S1x2048 .f32) :
    out0_B_5 c i arg2 harg2 arg3 harg3 arg4 harg4 arg5 harg5 arg6 harg6 arg7 harg7 arg8 harg8 arg9 harg9 arg10 harg10 hc0 x0 x1 x2 x3 x4 xs0 xs1 xs2
      = k0_pay1 (k0_pay6 (View.ld xs1 (tileRows i)) xs2 x3 xs0) x4 := by
  unfold out0_B_5
  rw [View.read_writes_eq_canon _ _ _ (cover0_B_5 c i arg2 harg2 arg3 harg3 arg4 harg4 arg5 harg5 arg6 harg6 arg7 harg7 arg8 harg8 arg9 harg9 arg10 harg10 hc0 x0 x1 x2 x3 x4 xs0 xs1 xs2)]
  unfold kernelRun0_B
  dsimp only
  sl_unfold_words
  rw [View.canon_unit_zero hz3]
  simp only [View.readAt_eq_ld, harg5.read_unread, harg6.read_unread, harg8.read_unread, harg9.read_unread, harg10.read_unread,
    View.ld_unit_zero (S := S1x512x2048) hz3, View.ld_unit_zero (S := S256) hz1, View.ld_unit_zero (S := S2048x256) hz2, View.ld_unit_zero (S := S1x2048) hz2]
  rfl

end Cert.KernelIdeal.KPieces
end
-- ==== Proof.KBlocks.lean ====
/-
  The blocks the kernel's windows stage at a grid point, read at an entry: point t works on batch t / 4 and, within
  it, on the rows 512 · (t mod 4) … of the mask and of the result; W, a and the bias are staged whole.
-/
import proofs.«424068_j66374424592902_3_alg».proof.Proof.Gen.KernelIdeal.Frame
import Idealize.ShloMosaic.Lib.Pipeline.Value
import Idealize.ShloMosaic.Lib.ValueIdx

noncomputable section

namespace Cert.KernelIdeal.KBlocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

theorem N32 : cfg0.N = 32 := N_0

/-- The batch grid point t works on. -/
def bt (t : Fin cfg0.N) : Fin 8 := ⟨t.val / 4, by have := t.isLt; have := N32; omega⟩

/-- Row r of the query tile of grid point t, as a row of the batch. -/
def row (t : Fin cfg0.N) (r : Fin 512) : Fin 2048 := ⟨512 * (t.val % 4) + r.val, by have := r.isLt; omega⟩

theorem idx0 : ∀ t : Fin cfg0.N, win0_0.index t 0 = t.val / 4 ∧ win0_0.index t 1 = 0 ∧ win0_0.index t 2 = 0 :=
  (by decide +kernel : ∀ t : Fin grid0.N, win0_0.index t 0 = t.val / 4 ∧ win0_0.index t 1 = 0 ∧ win0_0.index t 2 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val / 4 ∧ win0_3.index t 1 = t.val % 4 ∧ win0_3.index t 2 = 0 :=
  (by decide +kernel : ∀ t : Fin grid0.N, win0_3.index t 0 = t.val / 4 ∧ win0_3.index t 1 = t.val % 4 ∧ win0_3.index t 2 = 0)
theorem idx4 : ∀ t : Fin cfg0.N, win0_4.index t 0 = 0 :=
  (by decide +kernel : ∀ t : Fin grid0.N, win0_4.index t 0 = 0)
theorem idx5 : ∀ t : Fin cfg0.N, win0_5.index t 0 = t.val / 4 ∧ win0_5.index t 1 = t.val % 4 ∧ win0_5.index t 2 = 0 :=
  (by decide +kernel : ∀ t : Fin grid0.N, win0_5.index t 0 = t.val / 4 ∧ win0_5.index t 1 = t.val % 4 ∧ win0_5.index t 2 = 0)

/-- The block of x at point t is batch t / 4 of x. -/
theorem iblk0_apply (c : Dev nD) (t : Fin cfg0.N) (n : Fin 2048) (i : Fin 256) :
    (iblk m c 0 t : Vec F S1x2048x256 .f32) (ix3 0 n i) = V m c main_arg0 (ix3 (bt t) n i) := by
  unfold iblk
  rw [View.read_apply]
  show V m c main_arg0 _ = V m c main_arg0 _
  congr 1
  funext a
  apply Fin.ext
  obtain ⟨h0, h1, h2⟩ := idx0 t
  match a with
  | ⟨0, _⟩ => show win0_0.index t 0 * 1 + 1 * 0 = t.val / 4; rw [h0]; omega
  | ⟨1, _⟩ => show win0_0.index t 1 * 2048 + 1 * n.val = n.val; rw [h1]; omega
  | ⟨2, _⟩ => show win0_0.index t 2 * 256 + 1 * i.val = i.val; rw [h2]; omega

/-- W is staged whole. -/
theorem iblk1_apply (c : Dev nD) (t : Fin cfg0.N) (o : Fin 256) (i : Fin 256) :
    (iblk m c 1 t : Vec F S256x256 .f32) (ix2 o i) = V m c main_arg2 (ix2 o i) := by
  unfold iblk
  rw [View.read_apply]
  show V m c main_arg2 _ = V m c main_arg2 _
  congr 1
  funext a
  apply Fin.ext
  obtain ⟨h0, h1⟩ := idx1 t
  match a with
  | ⟨0, _⟩ => show win0_1.index t 0 * 256 + 1 * o.val = o.val; rw [h0]; omega
  | ⟨1, _⟩ => show win0_1.index t 1 * 256 + 1 * i.val = i.val; rw [h1]; omega

/-- a is staged whole. -/
theorem iblk2_apply (c : Dev nD) (t : Fin cfg0.N) (k : Fin 2) (o : Fin 256) :
    (iblk m c 2 t : Vec F S2x256 .f32) (ix2 k o) = V m c main_arg3 (ix2 k o) := by
  unfold iblk
  rw [View.read_apply]
  show V m c main_arg3 _ = V m c main_arg3 _
  congr 1
  funext a
  apply Fin.ext
  obtain ⟨h0, h1⟩ := idx2 t
  match a with
  | ⟨0, _⟩ => show win0_2.index t 0 * 2 + 1 * k.val = k.val; rw [h0]; omega
  | ⟨1, _⟩ => show win0_2.index t 1 * 256 + 1 * o.val = o.val; rw [h1]; omega

/-- The block of the mask at point t: its batch, the tile's 512 query rows, every key. -/
theorem iblk3_apply (c : Dev nD) (t : Fin cfg0.N) (r : Fin 512) (k : Fin 2048) :
    (iblk m c 3 t : Vec F S1x512x2048 .i32) (ix3 0 r k) = V m c main_arg1 (ix3 (bt t) (row t r) k) := by
  unfold iblk
  rw [View.read_apply]
  show V m c main_arg1 _ = V m c main_arg1 _
  congr 1
  funext a
  apply Fin.ext
  obtain ⟨h0, h1, h2⟩ := idx3 t
  match a with
  | ⟨0, _⟩ => show win0_3.index t 0 * 1 + 1 * 0 = t.val / 4; rw [h0]; omega
  | ⟨1, _⟩ => show win0_3.index t 1 * 512 + 1 * r.val = 512 * (t.val % 4) + r.val; rw [h1]; omega
  | ⟨2, _⟩ => show win0_3.index t 2 * 2048 + 1 * k.val = k.val; rw [h2]; omega

/-- The bias is staged whole. -/
theorem iblk4_apply (c : Dev nD) (t : Fin cfg0.N) (o : Fin 256) :
    (iblk m c 4 t : Vec F S256 .f32) (ix1 o) = V m c main_arg4 (ix1 o) := by
  unfold iblk
  rw [View.read_apply]
  show V m c main_arg4 _ = V m c main_arg4 _
  congr 1
  funext a
  apply Fin.ext
  have h0 := idx4 t
  match a with
  | ⟨0, _⟩ => show win0_4.index t 0 * 256 + 1 * o.val = o.val; rw [h0]; omega

end Cert.KernelIdeal.KBlocks
end
-- ==== Proof.Spec.lean ====
/-
  The attention layer both programs compute, written once, index by index, on the extended reals.

  For a batch b, a query row n and a feature o:
    hid b n o   = Σ_i x[b,n,i] · W[o,i]                              (the projected features)
    att k b n   = Σ_o hid b n o · a[k,o]                             (the two additive scores, k = 0, 1)
    logit b n m = masked (mask[b,n,m]) (lrelu (att 0 b n + att 1 b m))
    rowmax b n  = max over m of logit b n m (from -∞)
    wt b n m    = exp (logit b n m - rowmax b n)
    den b n     = Σ_m wt b n m
  and the result in its two arrangements: the weights normalised after the product with the features
  (`outK`: (Σ_m wt·hid) · (1 / den) + bias) or before it (`outR`: Σ_m (wt / den)·hid + bias).
-/
import Idealize.ShloMosaic.Lib.ValueIdx
import Idealize.ShloMosaic.PureOps.Ideal

noncomputable section

namespace Cert.Spec

open Idealize.ShloMosaic Idealize.ShloMosaic.ValueIdx

abbrev SX : Shape := ⟨3, ![8, 2048, 256]⟩
abbrev SM : Shape := ⟨3, ![8, 2048, 2048]⟩
abbrev SW : Shape := ⟨2, ![256, 256]⟩
abbrev SA : Shape := ⟨2, ![2, 256]⟩
abbrev SB : Shape := ⟨1, ![256]⟩

variable (x : FVec Ideal SX .f32) (mask : IVec SM 32) (W : FVec Ideal SW .f32) (a : FVec Ideal SA .f32)
  (bias : FVec Ideal SB .f32)

/-- The projected feature o of row n of batch b: row n of x against row o of W. -/
def hid (b : Fin 8) (n : Fin 2048) (o : Fin 256) : EReal := ∑ i : Fin 256, x (ix3 b n i) * W (ix2 o i)

/-- The additive score k (0: as a query, 1: as a key) of row n of batch b: its features against row k of a. -/
def att (k : Fin 2) (b : Fin 8) (n : Fin 2048) : EReal := ∑ o : Fin 256, hid x W b n o * a (ix2 k o)

/-- The leaky rectifier with slope the float 0.2: s where 0 ≤ s, else 0.2 · s. -/
def lrelu (s : EReal) : EReal :=
  Scalar.select (Ideal.cmp .oge s (Ideal.ofBits .f32 0x00000000#32)) s (Ideal.ofBits .f32 0x3E4CCCCD#32 * s)

/-- The mask: v where the mask word is positive, else v plus the float -1e12. -/
def masked (w : BitVec 32) (v : EReal) : EReal :=
  Scalar.select (IntOp.cmpi .sgt w 0#32) v (v + Ideal.ofBits .f32 0xD368D4A5#32)

/-- The masked, rectified score of query n against key m. -/
def logit (b : Fin 8) (n m : Fin 2048) : EReal :=
  masked (mask (ix3 b n m)) (lrelu (att x W a 0 b n + att x W a 1 b m))

/-- The largest score of query n, from -∞. -/
def rowmax (b : Fin 8) (n : Fin 2048) : EReal :=
  (Finset.univ : Finset (Fin 2048)).fold max (Ideal.ofBits .f32 0xFF800000#32) (fun m => logit x mask W a b n m)

/-- The unnormalised attention weight. -/
def wt (b : Fin 8) (n m : Fin 2048) : EReal := Ideal.exp (logit x mask W a b n m - rowmax x mask W a b n)

/-- The row's normaliser. -/
def den (b : Fin 8) (n : Fin 2048) : EReal := ∑ m : Fin 2048, wt x mask W a b n m

/-- The result, the weights normalised AFTER the product with the features (by the reciprocal of the normaliser). -/
def outK (b : Fin 8) (n : Fin 2048) (o : Fin 256) : EReal :=
  (∑ m : Fin 2048, wt x mask W a b n m * hid x W b m o) * Ideal.div (Ideal.ofBits .f32 0x3F800000#32) (den x mask W a b n)
    + bias (ix1 o)

/-- The result, the weights normalised BEFORE the product with the features. -/
def outR (b : Fin 8) (n : Fin 2048) (o : Fin 256) : EReal :=
  (∑ m : Fin 2048, Ideal.div (wt x mask W a b n m) (den x mask W a b n) * hid x W b m o) + bias (ix1 o)

end Cert.Spec

end
-- ==== Proof.LibTransDot.lean ====
/-
  The matrix product with the right operand contracted on its last axis, read at an entry.

  For the dimension numbers "contract the left operand's axis 1 with the right operand's axis 1, no batch axis", the
  product of an M-by-K and an N-by-K matrix has at entry (p, q) the sum over k of left (p, k) times right (q, k): the
  left operand times the transpose of the right one.  At the exact values this holds of the host's product and of a
  kernel's product accumulated into a zero splat alike, on all extended reals, because only 0 + x = x is used.
-/
import Idealize.ShloMosaic.Lib.ValueIdx
import Idealize.ShloMosaic.Lib.KernelVsHost
import Idealize.ShloMosaic.PureOps.Ideal.Laws

noncomputable section

namespace Idealize.ShloMosaic.TransDot

open Idealize.ShloMosaic.ValueIdx

variable {M K N : Nat} {φ₁ φ₂ : FTy}

/-- The left operand's index at output entry j and contraction step k: row of j, column k. -/
theorem lhsIdx_trans (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl j _).trans hk

/-- The right operand's index at output entry j and contraction step k: row the column of j, column k. -/
theorem rhsIdx_trans (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl j _).trans hk

/-- The host's product at an entry is the sum over the contraction of left (row, k) times right (column, k). -/
theorem dotGeneral_trans_apply (prec : Option ContractPrecision) (l : FVec Ideal ⟨2, ![M, K]⟩ φ₁)
    (r : FVec Ideal ⟨2, ![N, K]⟩ φ₂) (j : (⟨2, ![M, N]⟩ : Shape).Idx) :
    Host.dotGeneral (DotDims.transposedRhs M K N) prec l r j = ∑ k : Fin K, l (ix2 (j 0) k) * r (ix2 (j 1) k) := by
  simp only [Host.dotGeneral]
  rw [Ideal.dotGeneral_apply, ← Equiv.sum_comp (contrEquiv1 (DotDims.transposedRhs M K N) K rfl rfl).symm]
  refine Finset.sum_congr rfl fun k _ => ?_
  rw [lhsIdx_trans, rhsIdx_trans]
  rfl

/-- A kernel's product accumulated into a zero splat, at an entry: the same sum. -/
theorem matmul_zero_trans_apply (prec : Option ContractPrecision) (l : FVec Ideal ⟨2, ![M, K]⟩ φ₁)
    (r : FVec Ideal ⟨2, ![N, K]⟩ φ₂) (j : (⟨2, ![M, N]⟩ : Shape).Idx) :
    matmul (DotDims.transposedRhs M K N) prec l r (constant ⟨2, ![M, N]⟩ .f32 0x00000000#32) j
      = ∑ k : Fin K, l (ix2 (j 0) k) * r (ix2 (j 1) k) := by
  rw [matmul_zero_eq_dotGeneral, dotGeneral_trans_apply]

end Idealize.ShloMosaic.TransDot

end
-- ==== Proof.LibPlainDot.lean ====
/-
  The plain matrix product, rows times contraction by contraction times columns, read at an entry.

  For the dimension numbers "contract the left operand's axis 1 with the right operand's axis 0, no batch axis", the
  product of an M-by-K and a K-by-N matrix has at entry (p, q) the sum over k of left (p, k) times right (k, q).  At the
  exact values this holds of the host's product and of a kernel's product accumulated into a zero splat alike, on all
  extended reals, because only 0 + x = x is used.
-/
import Idealize.ShloMosaic.Lib.ValueIdx
import Idealize.ShloMosaic.Lib.KernelVsHost
import Idealize.ShloMosaic.PureOps.Ideal.Laws

noncomputable section

namespace Idealize.ShloMosaic.PlainDot

open Idealize.ShloMosaic.ValueIdx

variable {M K N : Nat} {φ₁ φ₂ : FTy}

/-- The left operand's index at output entry j and contraction step k: row of j, column k. -/
theorem lhsIdx_plain (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

/-- The right operand's index at output entry j and contraction step k: row k, column of j. -/
theorem rhsIdx_plain (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- The host's plain product at an entry is the sum over the contraction of left (row, k) times right (k, column). -/
theorem dotGeneral_plain_apply (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [lhsIdx_plain, rhsIdx_plain]
  rfl

/-- A kernel's plain product accumulated into a zero splat, at an entry: the same sum. -/
theorem matmul_zero_plain_apply (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant ⟨2, ![M, N]⟩ .f32 0x00000000#32) j
      = ∑ k : Fin K, l (ix2 (j 0) k) * r (ix2 k (j 1)) := by
  rw [matmul_zero_eq_dotGeneral, dotGeneral_plain_apply]

end Idealize.ShloMosaic.PlainDot
-- ==== Proof.KPay.lean ====
/-
  The kernel body's arithmetic, read at an entry at the ideal instance: the projection and the two score vectors the
  first tile of a batch computes, and the bias added to a tile.
-/
import proofs.«424068_j66374424592902_3_alg».proof.Proof.Gen.KernelIdeal.Skeleton
import proofs.«424068_j66374424592902_3_alg».proof.Proof.Spec
import proofs.«424068_j66374424592902_3_alg».proof.Proof.LibTransDot
import proofs.«424068_j66374424592902_3_alg».proof.Proof.LibPlainDot
import Idealize.ShloMosaic.Lib.Pipeline.Value
import Idealize.ShloMosaic.Lib.ValueLayout
import Idealize.ShloMosaic.PureOps.Ideal.Laws

noncomputable section

namespace Cert.KernelIdeal.KPay

open Cert.KernelIdeal Cert.KernelIdeal.Gen Idealize.ShloMosaic Idealize.ShloMosaic.ValueIdx

/-- The projection's dimension numbers are those of a product with the right operand contracted on its last axis. -/
theorem dotProj_eq : dot_S2048x256_S256x256_S2048x256_1_1_0_0_n_n = DotDims.transposedRhs 2048 256 256 := rfl

/-- So are the query scores' … -/
theorem dotQuery_eq : dot_S2048x256_S1x256_S2048x1_1_1_0_0_n_n = DotDims.transposedRhs 2048 256 1 := rfl

/-- … and the key scores'. -/
theorem dotKey_eq : dot_S1x256_S2048x256_S1x2048_1_1_0_0_n_n = DotDims.transposedRhs 1 256 2048 := rfl

/-- The projection at (n, o): row n of the batch's block of x against row o of W. -/
theorem pay2_apply (xb : FVec Ideal S1x2048x256 .f32) (w : FVec Ideal S256x256 .f32) (n : Fin 2048) (o : Fin 256) :
    k0_pay2 (F := Ideal) xb w (ix2 n o) = ∑ i : Fin 256, xb (ix3 0 n i) * w (ix2 o i) := by
  unfold k0_pay2
  rw [dotProj_eq]
  refine (TransDot.matmul_zero_trans_apply none _ _ (ix2 n o)).trans ?_
  refine Finset.sum_congr rfl fun i _ => ?_
  exact congrArg (· * w (ix2 o i)) (shapeCast_1ab_ab_apply xb _ n i)

/-- What is cached as the features is the projection (a change of float format is the identity). -/
theorem pay3_apply (xb : FVec Ideal S1x2048x256 .f32) (w : FVec Ideal S256x256 .f32) (n : Fin 2048) (o : Fin 256) :
    k0_pay3 (F := Ideal) xb w (ix2 n o) = ∑ i : Fin 256, xb (ix3 0 n i) * w (ix2 o i) := by
  unfold k0_pay3
  rw [shapeCast_self]
  exact pay2_apply xb w n o

/-- The column of query scores at row n: the projection's row n against row 0 of a. -/
theorem pay4_apply (xb : FVec Ideal S1x2048x256 .f32) (w : FVec Ideal S256x256 .f32) (av : FVec Ideal S2x256 .f32) (n : Fin 2048) :
    k0_pay4 (F := Ideal) xb w av (ix2 n 0)
      = ∑ o : Fin 256, (∑ i : Fin 256, xb (ix3 0 n i) * w (ix2 o i)) * av (ix2 0 o) := by
  unfold k0_pay4
  rw [shapeCast_self, dotQuery_eq]
  refine (TransDot.matmul_zero_trans_apply none _ _ (ix2 n 0)).trans ?_
  refine Finset.sum_congr rfl fun o _ => ?_
  exact congrArg₂ (· * ·) (pay2_apply xb w n o) (slice2_axis0_apply 0 av _ 0 o 0 rfl)

/-- The row of key scores at column n: the projection's row n against row 1 of a. -/
theorem pay5_apply (xb : FVec Ideal S1x2048x256 .f32) (w : FVec Ideal S256x256 .f32) (av : FVec Ideal S2x256 .f32) (n : Fin 2048) :
    k0_pay5 (F := Ideal) xb w av (ix2 0 n)
      = ∑ o : Fin 256, (∑ i : Fin 256, xb (ix3 0 n i) * w (ix2 o i)) * av (ix2 1 o) := by
  unfold k0_pay5
  rw [shapeCast_self, dotKey_eq]
  refine (TransDot.matmul_zero_trans_apply none _ _ (ix2 0 n)).trans ?_
  refine Finset.sum_congr rfl fun o _ => ?_
  exact (congrArg₂ (· * ·) (slice2_axis0_apply 1 av _ 0 o 1 rfl) (pay2_apply xb w n o)).trans (mul_comm _ _)

/-- The stored block at (0, r, o): the tile's entry plus the bias of feature o. -/
theorem pay1_apply (acc : FVec Ideal S512x256 .f32) (bs : FVec Ideal S256 .f32) (r : Fin 512) (o : Fin 256) :
    k0_pay1 (F := Ideal) acc bs (ix3 0 r o) = acc (ix2 r o) + bs (ix1 o) := by
  unfold k0_pay1
  refine (shapeCast_ab_1ab_apply _ _ 0 r o).trans ?_
  refine congrArg (acc (ix2 r o) + ·) ?_
  refine (broadcastTo_1b_ab_apply _ _ r o).trans ?_
  exact shapeCast_a_1a_apply bs _ 0 o

end Cert.KernelIdeal.KPay

end
-- ==== Proof.KPay6.lean ====
/-
  One query tile of the kernel body, read at an entry at the ideal instance: the masked, rectified scores of the
  tile's rows, their row softmax weights against the cached features, and the reciprocal of the row sums.
-/
import proofs.«424068_j66374424592902_3_alg».proof.Proof.Gen.KernelIdeal.Skeleton
import proofs.«424068_j66374424592902_3_alg».proof.Proof.Spec
import proofs.«424068_j66374424592902_3_alg».proof.Proof.LibTransDot
import proofs.«424068_j66374424592902_3_alg».proof.Proof.LibPlainDot
import Idealize.ShloMosaic.Lib.Pipeline.Value
import Idealize.ShloMosaic.Lib.ValueLayout
import Idealize.ShloMosaic.PureOps.Ideal.Laws

noncomputable section

namespace Cert.KernelIdeal.KPay

open Cert.KernelIdeal Cert.KernelIdeal.Gen Idealize.ShloMosaic Idealize.ShloMosaic.ValueIdx

/-- Inside a query tile: the masked, rectified score of the tile's row r against key m, from the tile's column of
    query scores, the row of key scores and the tile's mask block. -/
def tlogit (q : FVec Ideal S512x1 .f32) (k : FVec Ideal S1x2048 .f32) (mk : IVec S1x512x2048 32) (r : Fin 512) (m : Fin 2048) : EReal :=
  Cert.Spec.masked (mk (ix3 0 r m)) (Cert.Spec.lrelu (q (ix2 r 0) + k (ix2 0 m)))

/-- The largest score of the tile's row r, from -∞. -/
def tmax (q : FVec Ideal S512x1 .f32) (k : FVec Ideal S1x2048 .f32) (mk : IVec S1x512x2048 32) (r : Fin 512) : EReal :=
  (Finset.univ : Finset (Fin 2048)).fold max (Ideal.ofBits .f32 0xFF800000#32) (fun m => tlogit q k mk r m)

/-- The unnormalised weight of key m for the tile's row r. -/
def twt (q : FVec Ideal S512x1 .f32) (k : FVec Ideal S1x2048 .f32) (mk : IVec S1x512x2048 32) (r : Fin 512) (m : Fin 2048) : EReal :=
  Ideal.exp (tlogit q k mk r m - tmax q k mk r)

/-! ## Column forms of the layout operations -/

section Columns
variable {α : Type}

/-- A column `[a, 1]` broadcast to `[a, b]` reads, at `(p, c)`, the column's entry of row `p`. -/
theorem tile_broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`, whatever the unit coordinate. -/
theorem tile_shapeCast_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Columns

/-- The index a reduction over the columns inserts: row `r` with column `m` put back is `(r, m)`. -/
theorem tile_lift_row (r : Fin 512) (m : Fin 2048) :
    Facts₀.reduces_S512x2048_S512.lift (ix1 r) m = ix2 r m := by
  funext a
  apply Fin.ext
  match a with
  | ⟨0, _⟩ => rfl
  | ⟨1, _⟩ => rfl

/-! ## The tile's sub-terms, named -/

/-- The tile's scores as the kernel body computes them: the sum of the broadcast column of query scores and the
    broadcast row of key scores, rectified, then masked by the tile's mask block. -/
def tile_scores (q : FVec Ideal S512x1 .f32) (k : FVec Ideal S1x2048 .f32) (mk : IVec S1x512x2048 32) : FVec Ideal S512x2048 .f32 :=
  have v8 : FVec Ideal S512x2048 .f32 := broadcastTo S512x2048 q Facts₀.broadcasts_S512x1_S512x2048
  have v9 : FVec Ideal S512x2048 .f32 := broadcastTo S512x2048 k Facts₀.broadcasts_S1x2048_S512x2048
  have v10 : FVec Ideal S512x2048 .f32 := addf v8 v9
  have cst : Ideal .f32 := Scalar.ofBits .f32 0x3E4CCCCD#32
  have cst_3 : Ideal .f32 := Scalar.ofBits .f32 0x00000000#32
  have v11 : FVec Ideal S512x2048 .f32 := broadcast S512x2048 cst_3
  have v12 : IVec S512x2048 1 := cmpf .oge v10 v11
  have v13 : FVec Ideal S512x2048 .f32 := broadcast S512x2048 cst
  have v14 : FVec Ideal S512x2048 .f32 := mulf v13 v10
  have v15 : FVec Ideal S512x2048 .f32 := select v12 v10 v14
  have v17 : IVec S512x2048 32 := shapeCast S512x2048 mk Facts₀.shapeCasts_S1x512x2048_S512x2048
  have v18 : IVec S512x2048 32 := broadcast S512x2048 0#32
  have v19 : IVec S512x2048 1 := cmpi .sgt v17 v18
  have cst_8 : Ideal .f32 := Scalar.ofBits .f32 0xD368D4A5#32
  have v20 : FVec Ideal S512x2048 .f32 := broadcast S512x2048 cst_8
  have v21 : FVec Ideal S512x2048 .f32 := addf v15 v20
  select v19 v15 v21

/-- The tile's unnormalised weights as the kernel body computes them: the exponential of the scores less the broadcast
    column of their row maxima. -/
def tile_weights (q : FVec Ideal S512x1 .f32) (k : FVec Ideal S1x2048 .f32) (mk : IVec S1x512x2048 32) : FVec Ideal S512x2048 .f32 :=
  have v22 : FVec Ideal S512x2048 .f32 := tile_scores q k mk
  have v23 : FVec Ideal S512 .f32 := multiReduction .maximumf [1] S512 v22 0xFF800000#32 Facts₀.reduces_S512x2048_S512 (.inl rfl) rfl
  have v24 : FVec Ideal S512x1 .f32 := shapeCast S512x1 v23 Facts₀.shapeCasts_S512_S512x1
  have v25 : FVec Ideal S512x2048 .f32 := broadcastTo S512x2048 v24 Facts₀.broadcasts_S512x1_S512x2048
  have v26 : FVec Ideal S512x2048 .f32 := subf v22 v25
  exp v26

/-- The column of reciprocals of the tile's row sums of weights as the kernel body computes it. -/
def tile_recips (q : FVec Ideal S512x1 .f32) (k : FVec Ideal S1x2048 .f32) (mk : IVec S1x512x2048 32) : FVec Ideal S512x1 .f32 :=
  have v28 : FVec Ideal S512 .f32 := multiReduction .add [1] S512 (tile_weights q k mk) 0x00000000#32 Facts₀.reduces_S512x2048_S512 (.inl rfl) rfl
  have v29 : FVec Ideal S512x1 .f32 := shapeCast S512x1 v28 Facts₀.shapeCasts_S512_S512x1
  have cst_11 : Ideal .f32 := Scalar.ofBits .f32 0x3F800000#32
  have v30 : FVec Ideal S512x1 .f32 := broadcast S512x1 cst_11
  divf v30 v29

/-- The tile's payload over the named sub-terms: the weights (narrowed) times the cached features, accumulated into
    a zero splat, times the broadcast column of reciprocals. -/
theorem pay6_eq (q : FVec Ideal S512x1 .f32) (k : FVec Ideal S1x2048 .f32) (mk : IVec S1x512x2048 32)
    (hc : FVec Ideal S2048x256 .bf16) :
    k0_pay6 (F := Ideal) q k mk hc
      = mulf (matmul dot_S512x2048_S2048x256_S512x256_1_0_0_1_n_n none
                (truncf .bf16 (tile_weights q k mk) Facts₀.bitsLt_bf16_f32) hc (constant (F := Ideal) S512x256 .f32 0x00000000#32))
             (broadcastTo S512x256 (tile_recips q k mk) Facts₀.broadcasts_S512x1_S512x256) := rfl

/-! ## The sub-terms at an entry -/

/-- The tile's score at (r, m) is the specification's masked, rectified score. -/
theorem tile_scores_apply (q : FVec Ideal S512x1 .f32) (k : FVec Ideal S1x2048 .f32) (mk : IVec S1x512x2048 32)
    (r : Fin 512) (m : Fin 2048) : tile_scores q k mk (ix2 r m) = tlogit q k mk r m := by
  have h8 : broadcastTo S512x2048 q Facts₀.broadcasts_S512x1_S512x2048 (ix2 r m) = q (ix2 r 0) :=
    tile_broadcastTo_col_apply q _ r m
  have h9 : broadcastTo S512x2048 k Facts₀.broadcasts_S1x2048_S512x2048 (ix2 r m) = k (ix2 0 m) :=
    broadcastTo_1b_ab_apply k _ r m
  have h17 : shapeCast S512x2048 mk Facts₀.shapeCasts_S1x512x2048_S512x2048 (ix2 r m) = mk (ix3 0 r m) :=
    shapeCast_1ab_ab_apply mk _ r m
  unfold tlogit
  rw [← h8, ← h9, ← h17]
  rfl

/-- The maximum of the tile's row r of scores, from -∞. -/
theorem tile_rowmax_apply (q : FVec Ideal S512x1 .f32) (k : FVec Ideal S1x2048 .f32) (mk : IVec S1x512x2048 32) (r : Fin 512) :
    multiReduction .maximumf [1] S512 (tile_scores q k mk) 0xFF800000#32 Facts₀.reduces_S512x2048_S512 (.inl rfl) rfl (ix1 r)
      = tmax q k mk r := by
  refine (Ideal.multiReduction_maximumf_single _ _ _ _ _ _).trans ?_
  exact congrArg (fun f => (Finset.univ : Finset (Fin 2048)).fold max (Ideal.ofBits .f32 0xFF800000#32) f)
    (funext fun m => (congrArg (tile_scores q k mk) (tile_lift_row r m)).trans (tile_scores_apply q k mk r m))

/-- The tile's weight at (r, m) is the exponential of the score less the row's maximum. -/
theorem tile_weights_apply (q : FVec Ideal S512x1 .f32) (k : FVec Ideal S1x2048 .f32) (mk : IVec S1x512x2048 32)
    (r : Fin 512) (m : Fin 2048) : tile_weights q k mk (ix2 r m) = twt q k mk r m := by
  have h25 : broadcastTo S512x2048 (shapeCast S512x1
        (multiReduction .maximumf [1] S512 (tile_scores q k mk) 0xFF800000#32 Facts₀.reduces_S512x2048_S512 (.inl rfl) rfl)
        Facts₀.shapeCasts_S512_S512x1) Facts₀.broadcasts_S512x1_S512x2048 (ix2 r m) = tmax q k mk r :=
    (tile_broadcastTo_col_apply _ _ r m).trans ((tile_shapeCast_col_apply _ _ r 0).trans (tile_rowmax_apply q k mk r))
  exact congrArg₂ (fun a b => Ideal.exp (a - b)) (tile_scores_apply q k mk r m) h25

/-- The sum of the tile's row r of weights. -/
theorem tile_rowsum_apply (q : FVec Ideal S512x1 .f32) (k : FVec Ideal S1x2048 .f32) (mk : IVec S1x512x2048 32) (r : Fin 512) :
    multiReduction .add [1] S512 (tile_weights q k mk) 0x00000000#32 Facts₀.reduces_S512x2048_S512 (.inl rfl) rfl (ix1 r)
      = ∑ m : Fin 2048, twt q k mk r m := by
  refine (Ideal.multiReduction_add_single _ _ _ _ _ _).trans ?_
  exact Finset.sum_congr rfl fun m _ => (congrArg (tile_weights q k mk) (tile_lift_row r m)).trans (tile_weights_apply q k mk r m)

/-- The reciprocal of the sum of the tile's row r of weights. -/
theorem tile_recips_apply (q : FVec Ideal S512x1 .f32) (k : FVec Ideal S1x2048 .f32) (mk : IVec S1x512x2048 32) (r : Fin 512) :
    tile_recips q k mk (ix2 r 0) = Ideal.div (Ideal.ofBits .f32 0x3F800000#32) (∑ m : Fin 2048, twt q k mk r m) :=
  congrArg (Ideal.div (Ideal.ofBits .f32 0x3F800000#32))
    ((tile_shapeCast_col_apply _ _ r 0).trans (tile_rowsum_apply q k mk r))

/-- The record of the tile's product is the plain one: rows by contraction against contraction by columns. -/
theorem tile_dot_eq_plain : dot_S512x2048_S2048x256_S512x256_1_0_0_1_n_n = DotDims.plain 512 2048 256 := rfl

/-- One query tile at (r, o): the weights of row r against column o of the cached features, times the reciprocal of
    the row's sum of weights. -/
theorem pay6_apply (q : FVec Ideal S512x1 .f32) (k : FVec Ideal S1x2048 .f32) (mk : IVec S1x512x2048 32)
    (hc : FVec Ideal S2048x256 .bf16) (r : Fin 512) (o : Fin 256) :
    k0_pay6 (F := Ideal) q k mk hc (ix2 r o)
      = (∑ m : Fin 2048, twt q k mk r m * hc (ix2 m o))
          * Ideal.div (Ideal.ofBits .f32 0x3F800000#32) (∑ m : Fin 2048, twt q k mk r m) := by
  rw [pay6_eq, tile_dot_eq_plain]
  have h34 : matmul (DotDims.plain 512 2048 256) none (truncf .bf16 (tile_weights q k mk) Facts₀.bitsLt_bf16_f32) hc
      (constant (F := Ideal) S512x256 .f32 0x00000000#32) (ix2 r o) = ∑ m : Fin 2048, twt q k mk r m * hc (ix2 m o) :=
    (Idealize.ShloMosaic.PlainDot.matmul_zero_plain_apply none _ hc (ix2 r o)).trans
      (Finset.sum_congr rfl fun m _ => congrArg (· * hc (ix2 m o)) (tile_weights_apply q k mk r m))
  have h35 : broadcastTo S512x256 (tile_recips q k mk) Facts₀.broadcasts_S512x1_S512x256 (ix2 r o)
      = Ideal.div (Ideal.ofBits .f32 0x3F800000#32) (∑ m : Fin 2048, twt q k mk r m) :=
    (tile_broadcastTo_col_apply _ _ r o).trans (tile_recips_apply q k mk r)
  exact congrArg₂ (· * ·) h34 h35

end Cert.KernelIdeal.KPay

end
-- ==== Proof.KInv.lean ====
/-
  What the kernel's cached arrays and its output block hold after each grid point, as the specification's functions
  of the argument arrays: after any point of batch b the cache holds batch b's projected features and its two score
  vectors (written by the batch's first tile, kept by the later ones), and the tile's output block holds the
  normalised weighted sums of its 512 query rows plus the bias.
-/
import proofs.«424068_j66374424592902_3_alg».proof.Proof.Gen.KernelIdeal.Frame
import proofs.«424068_j66374424592902_3_alg».proof.Proof.KPieces
import proofs.«424068_j66374424592902_3_alg».proof.Proof.KBlocks
import proofs.«424068_j66374424592902_3_alg».proof.Proof.KPay
import proofs.«424068_j66374424592902_3_alg».proof.Proof.KPay6

noncomputable section

namespace Cert.KernelIdeal.KInv

open Cert.KernelIdeal Cert.KernelIdeal.Gen Idealize.ShloMosaic Idealize.ShloMosaic.TcCoe Idealize.SL.Sem
open Idealize.ShloMosaic.ValueIdx Cert.KernelIdeal.KPieces Cert.KernelIdeal.KBlocks Cert.KernelIdeal.KPay

variable (m : (ℓ : Loc nD τ sig) → Buf (Elt Ideal) ℓ)

/-- The five argument arrays as the region finds them, at their literal types. -/
abbrev X (c : Dev nD) : FVec Ideal S8x2048x256 .f32 := V m c main_arg0
abbrev Mk (c : Dev nD) : IVec S8x2048x2048 32 := V m c main_arg1
abbrev Wt (c : Dev nD) : FVec Ideal S256x256 .f32 := V m c main_arg2
abbrev Av (c : Dev nD) : FVec Ideal S2x256 .f32 := V m c main_arg3
abbrev Bs (c : Dev nD) : FVec Ideal S256 .f32 := V m c main_arg4

/-- The blocks staged at a grid point, at their literal types. -/
abbrev xb (c : Dev nD) (t : Fin cfg0.N) : FVec Ideal S1x2048x256 .f32 := iblk m c 0 t
abbrev wb (c : Dev nD) (t : Fin cfg0.N) : FVec Ideal S256x256 .f32 := iblk m c 1 t
abbrev ab (c : Dev nD) (t : Fin cfg0.N) : FVec Ideal S2x256 .f32 := iblk m c 2 t
abbrev mb (c : Dev nD) (t : Fin cfg0.N) : IVec S1x512x2048 32 := iblk m c 3 t
abbrev bb (c : Dev nD) (t : Fin cfg0.N) : FVec Ideal S256 .f32 := iblk m c 4 t

/-- Batch b's projected features, as the cache holds them. -/
def hidC (c : Dev nD) (b : Fin 8) : FVec Ideal S2048x256 .bf16 := fun j => Cert.Spec.hid (X m c) (Wt m c) b (j 0) (j 1)
/-- Batch b's column of query scores. -/
def qC (c : Dev nD) (b : Fin 8) : FVec Ideal S2048x1 .f32 := fun j => Cert.Spec.att (X m c) (Wt m c) (Av m c) 0 b (j 0)
/-- Batch b's row of key scores. -/
def kC (c : Dev nD) (b : Fin 8) : FVec Ideal S1x2048 .f32 := fun j => Cert.Spec.att (X m c) (Wt m c) (Av m c) 1 b (j 1)

/-- The projection of the staged block of x by the staged W is the batch's projected features. -/
theorem hid_blocks (c : Dev nD) (t : Fin cfg0.N) :
    k0_pay3 (F := Ideal) (xb m c t) (wb m c t) = hidC m c (bt t) := by
  funext j
  obtain ⟨n, o, rfl⟩ : ∃ (n : Fin 2048) (o : Fin 256), j = ix2 n o := ⟨j 0, j 1, eq_ix2 j⟩
  rw [pay3_apply]
  show _ = Cert.Spec.hid (X m c) (Wt m c) (bt t) n o
  unfold Cert.Spec.hid
  refine Finset.sum_congr rfl fun i _ => ?_
  rw [show xb m c t (ix3 0 n i) = X m c (ix3 (bt t) n i) from iblk0_apply m c t n i,
    show wb m c t (ix2 o i) = Wt m c (ix2 o i) from iblk1_apply m c t o i]

/-- Its product with row 0 of the staged a is the batch's column of query scores. -/
theorem q_blocks (c : Dev nD) (t : Fin cfg0.N) :
    k0_pay4 (F := Ideal) (xb m c t) (wb m c t) (ab m c t) = qC m c (bt t) := by
  funext j
  obtain ⟨n, z, rfl⟩ : ∃ (n : Fin 2048) (z : Fin 1), j = ix2 n z := ⟨j 0, j 1, eq_ix2 j⟩
  obtain rfl : z = 0 := Subsingleton.elim _ _
  rw [pay4_apply]
  show _ = Cert.Spec.att (X m c) (Wt m c) (Av m c) 0 (bt t) n
  unfold Cert.Spec.att Cert.Spec.hid
  refine Finset.sum_congr rfl fun o _ => ?_
  rw [show ab m c t (ix2 0 o) = Av m c (ix2 0 o) from iblk2_apply m c t 0 o]
  refine congrArg (· * Av m c (ix2 0 o)) (Finset.sum_congr rfl fun i _ => ?_)
  rw [show xb m c t (ix3 0 n i) = X m c (ix3 (bt t) n i) from iblk0_apply m c t n i,
    show wb m c t (ix2 o i) = Wt m c (ix2 o i) from iblk1_apply m c t o i]

/-- Its product with row 1 of the staged a is the batch's row of key scores. -/
theorem k_blocks (c : Dev nD) (t : Fin cfg0.N) :
    k0_pay5 (F := Ideal) (xb m c t) (wb m c t) (ab m c t) = kC m c (bt t) := by
  funext j
  obtain ⟨z, n, rfl⟩ : ∃ (z : Fin 1) (n : Fin 2048), j = ix2 z n := ⟨j 0, j 1, eq_ix2 j⟩
  obtain rfl : z = 0 := Subsingleton.elim _ _
  rw [pay5_apply]
  show _ = Cert.Spec.att (X m c) (Wt m c) (Av m c) 1 (bt t) n
  unfold Cert.Spec.att Cert.Spec.hid
  refine Finset.sum_congr rfl fun o _ => ?_
  rw [show ab m c t (ix2 1 o) = Av m c (ix2 1 o) from iblk2_apply m c t 1 o]
  refine congrArg (· * Av m c (ix2 1 o)) (Finset.sum_congr rfl fun i _ => ?_)
  rw [show xb m c t (ix3 0 n i) = X m c (ix3 (bt t) n i) from iblk0_apply m c t n i,
    show wb m c t (ix2 o i) = Wt m c (ix2 o i) from iblk1_apply m c t o i]

/-- Points of one batch share its number: a point that is not a batch's first has the batch of the point before. -/
theorem bt_pred (k : ℕ) (h : k + 1 < cfg0.N) (h0 : ¬(k + 1) % 4 = 0) :
    bt ⟨k + 1, h⟩ = bt ⟨k, Nat.lt_of_succ_lt h⟩ := by
  unfold bt; apply Fin.ext; show (k + 1) / 4 = k / 4; omega

/-- THE CACHE after every grid point: batch t / 4's projected features and its two score vectors. -/
theorem cache_inv (c : Dev nD) : ∀ (n : ℕ) (h : n < cfg0.N),
    (outsAt0 m c n h).2.1 = hidC m c (bt ⟨n, h⟩) ∧ (outsAt0 m c n h).2.2.1 = qC m c (bt ⟨n, h⟩)
      ∧ (outsAt0 m c n h).2.2.2 = kC m c (bt ⟨n, h⟩) := by
  intro n
  induction n with
  | zero =>
    intro h
    have h0 : (⟨0, h⟩ : Fin cfg0.N).val % 4 = 0 := rfl
    rw [outsAt0_A m c ⟨0, h⟩ h0]
    dsimp only
    exact ⟨(sout_A_0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole cc0_scratch0) scM0_1 (Memref.isWhole_whole cc0_scratch1) scM0_2 (Memref.isWhole_whole cc0_scratch2) ((hcond0_0 ⟨0, h⟩).mpr h0) (iblk m c 0 ⟨0, h⟩) (iblk m c 1 ⟨0, h⟩) (iblk m c 2 ⟨0, h⟩) (iblk m c 3 ⟨0, h⟩) (iblk m c 4 ⟨0, h⟩)).trans (hid_blocks m c ⟨0, h⟩),
      (sout_A_1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole cc0_scratch0) scM0_1 (Memref.isWhole_whole cc0_scratch1) scM0_2 (Memref.isWhole_whole cc0_scratch2) ((hcond0_0 ⟨0, h⟩).mpr h0) (iblk m c 0 ⟨0, h⟩) (iblk m c 1 ⟨0, h⟩) (iblk m c 2 ⟨0, h⟩) (iblk m c 3 ⟨0, h⟩) (iblk m c 4 ⟨0, h⟩)).trans (q_blocks m c ⟨0, h⟩),
      (sout_A_2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole cc0_scratch0) scM0_1 (Memref.isWhole_whole cc0_scratch1) scM0_2 (Memref.isWhole_whole cc0_scratch2) ((hcond0_0 ⟨0, h⟩).mpr h0) (iblk m c 0 ⟨0, h⟩) (iblk m c 1 ⟨0, h⟩) (iblk m c 2 ⟨0, h⟩) (iblk m c 3 ⟨0, h⟩) (iblk m c 4 ⟨0, h⟩)).trans (k_blocks m c ⟨0, h⟩)⟩
  | succ k ih =>
    intro h
    by_cases h0 : (⟨k + 1, h⟩ : Fin cfg0.N).val % 4 = 0
    · rw [outsAt0_A m c ⟨k + 1, h⟩ h0]
      dsimp only
      exact ⟨(sout_A_0 c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) (ms0_4 ⟨k + 1, h⟩) (hs0_4 ⟨k + 1, h⟩) (ms0_5 ⟨k + 1, h⟩) (hs0_5 ⟨k + 1, h⟩) scM0_0 (Memref.isWhole_whole cc0_scratch0) scM0_1 (Memref.isWhole_whole cc0_scratch1) scM0_2 (Memref.isWhole_whole cc0_scratch2) ((hcond0_0 ⟨k + 1, h⟩).mpr h0) (iblk m c 0 ⟨k + 1, h⟩) (iblk m c 1 ⟨k + 1, h⟩) (iblk m c 2 ⟨k + 1, h⟩) (iblk m c 3 ⟨k + 1, h⟩) (iblk m c 4 ⟨k + 1, h⟩)).trans (hid_blocks m c ⟨k + 1, h⟩),
        (sout_A_1 c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) (ms0_4 ⟨k + 1, h⟩) (hs0_4 ⟨k + 1, h⟩) (ms0_5 ⟨k + 1, h⟩) (hs0_5 ⟨k + 1, h⟩) scM0_0 (Memref.isWhole_whole cc0_scratch0) scM0_1 (Memref.isWhole_whole cc0_scratch1) scM0_2 (Memref.isWhole_whole cc0_scratch2) ((hcond0_0 ⟨k + 1, h⟩).mpr h0) (iblk m c 0 ⟨k + 1, h⟩) (iblk m c 1 ⟨k + 1, h⟩) (iblk m c 2 ⟨k + 1, h⟩) (iblk m c 3 ⟨k + 1, h⟩) (iblk m c 4 ⟨k + 1, h⟩)).trans (q_blocks m c ⟨k + 1, h⟩),
        (sout_A_2 c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) (ms0_4 ⟨k + 1, h⟩) (hs0_4 ⟨k + 1, h⟩) (ms0_5 ⟨k + 1, h⟩) (hs0_5 ⟨k + 1, h⟩) scM0_0 (Memref.isWhole_whole cc0_scratch0) scM0_1 (Memref.isWhole_whole cc0_scratch1) scM0_2 (Memref.isWhole_whole cc0_scratch2) ((hcond0_0 ⟨k + 1, h⟩).mpr h0) (iblk m c 0 ⟨k + 1, h⟩) (iblk m c 1 ⟨k + 1, h⟩) (iblk m c 2 ⟨k + 1, h⟩) (iblk m c 3 ⟨k + 1, h⟩) (iblk m c 4 ⟨k + 1, h⟩)).trans (k_blocks m c ⟨k + 1, h⟩)⟩
    · rw [outsAt0_B m c ⟨k + 1, h⟩ h0]
      dsimp only
      unfold sout0_B_0 sout0_B_1 sout0_B_2
      rw [bt_pred k h h0]
      exact ih (Nat.lt_of_succ_lt h)

/-- THE OUTPUT BLOCK after every grid point: the tile's arithmetic over the batch's cached arrays, the tile's mask
    block and the bias. -/
theorem out_eq (c : Dev nD) (t : Fin cfg0.N) :
    (outsAt0 m c t.val t.isLt).1
      = k0_pay1 (F := Ideal) (k0_pay6 (F := Ideal) (View.ld (qC m c (bt t)) (tileRows (grid0.coords t))) (kC m c (bt t))
          (mb m c t) (hidC m c (bt t))) (bb m c t) := by
  obtain ⟨n, hn⟩ := t
  by_cases h0 : (⟨n, hn⟩ : Fin cfg0.N).val % 4 = 0
  · rw [outsAt0_A m c ⟨n, hn⟩ h0]
    dsimp only
    refine (out_A_5 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole cc0_scratch0) scM0_1 (Memref.isWhole_whole cc0_scratch1) scM0_2 (Memref.isWhole_whole cc0_scratch2) ((hcond0_0 ⟨n, hn⟩).mpr h0) (iblk m c 0 ⟨n, hn⟩) (iblk m c 1 ⟨n, hn⟩) (iblk m c 2 ⟨n, hn⟩) (iblk m c 3 ⟨n, hn⟩) (iblk m c 4 ⟨n, hn⟩)).trans ?_
    show k0_pay1 (F := Ideal) (k0_pay6 (F := Ideal) (View.ld (k0_pay4 (F := Ideal) (xb m c ⟨n, hn⟩) (wb m c ⟨n, hn⟩) (ab m c ⟨n, hn⟩)) (tileRows (grid0.coords ⟨n, hn⟩)))
      (k0_pay5 (F := Ideal) (xb m c ⟨n, hn⟩) (wb m c ⟨n, hn⟩) (ab m c ⟨n, hn⟩)) (mb m c ⟨n, hn⟩) (k0_pay3 (F := Ideal) (xb m c ⟨n, hn⟩) (wb m c ⟨n, hn⟩))) (bb m c ⟨n, hn⟩) = _
    rw [q_blocks, k_blocks, hid_blocks]
  · cases n with
    | zero => exact absurd rfl h0
    | succ k =>
      rw [outsAt0_B m c ⟨k + 1, hn⟩ h0]
      dsimp only
      refine (out_B_5 c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) (ms0_3 ⟨k + 1, hn⟩) (hs0_3 ⟨k + 1, hn⟩) (ms0_4 ⟨k + 1, hn⟩) (hs0_4 ⟨k + 1, hn⟩) (ms0_5 ⟨k + 1, hn⟩) (hs0_5 ⟨k + 1, hn⟩) scM0_0 (Memref.isWhole_whole cc0_scratch0) scM0_1 (Memref.isWhole_whole cc0_scratch1) scM0_2 (Memref.isWhole_whole cc0_scratch2) (fun h => h0 ((hcond0_0 ⟨k + 1, hn⟩).mp h)) (iblk m c 0 ⟨k + 1, hn⟩) (iblk m c 1 ⟨k + 1, hn⟩) (iblk m c 2 ⟨k + 1, hn⟩) (iblk m c 3 ⟨k + 1, hn⟩) (iblk m c 4 ⟨k + 1, hn⟩) _ _ _).trans ?_
      obtain ⟨e0, e1, e2⟩ := cache_inv m c k (Nat.lt_of_succ_lt hn)
      show k0_pay1 (F := Ideal) (k0_pay6 (F := Ideal) (View.ld (outsAt0 m c k (Nat.lt_of_succ_lt hn)).2.2.1 (tileRows (grid0.coords ⟨k + 1, hn⟩)))
        (outsAt0 m c k (Nat.lt_of_succ_lt hn)).2.2.2 (mb m c ⟨k + 1, hn⟩) (outsAt0 m c k (Nat.lt_of_succ_lt hn)).2.1) (bb m c ⟨k + 1, hn⟩) = _
      rw [e0, e1, e2, bt_pred k hn h0]

theorem coord1 : ∀ t : Fin cfg0.N, (grid0.coords t 1).val = t.val % 4 :=
  (by decide +kernel : ∀ t : Fin grid0.N, (grid0.coords t 1).val = t.val % 4)

/-- The tile's row r reads row 512 · (t mod 4) + r of the batch's column of query scores. -/
theorem tile_q (c : Dev nD) (t : Fin cfg0.N) (r : Fin 512) :
    (View.ld (Val := Elt Ideal) (e' := .f32) (qC m c (bt t)) (tileRows (grid0.coords t)) : Vec Ideal S512x1 .f32) (ix2 r 0)
      = Cert.Spec.att (X m c) (Wt m c) (Av m c) 0 (bt t) (row t r) := by
  show qC m c (bt t) ((tileRows (grid0.coords t)).idx (ix2 r 0)) = _
  unfold qC
  congr 1
  apply Fin.ext
  show k0_off1 (grid0.coords t) 0 + 1 * r.val = 512 * (t.val % 4) + r.val
  rw [k0_off1_eq]
  show 512 * (grid0.coords t 1).val + 1 * r.val = 512 * (t.val % 4) + r.val
  rw [coord1]
  omega

/-- Inside the tile of grid point t the scores are the batch's: row r of the tile is row 512 · (t mod 4) + r. -/
theorem tile_logit (c : Dev nD) (t : Fin cfg0.N) (r : Fin 512) (k : Fin 2048) :
    tlogit (View.ld (Val := Elt Ideal) (e' := .f32) (qC m c (bt t)) (tileRows (grid0.coords t))) (kC m c (bt t)) (mb m c t) r k
      = Cert.Spec.logit (X m c) (Mk m c) (Wt m c) (Av m c) (bt t) (row t r) k := by
  unfold tlogit Cert.Spec.logit
  rw [show mb m c t (ix3 0 r k) = Mk m c (ix3 (bt t) (row t r) k) from iblk3_apply m c t r k, tile_q]
  rfl

theorem tile_max (c : Dev nD) (t : Fin cfg0.N) (r : Fin 512) :
    tmax (View.ld (Val := Elt Ideal) (e' := .f32) (qC m c (bt t)) (tileRows (grid0.coords t))) (kC m c (bt t)) (mb m c t) r
      = Cert.Spec.rowmax (X m c) (Mk m c) (Wt m c) (Av m c) (bt t) (row t r) := by
  unfold tmax Cert.Spec.rowmax
  exact congrArg (fun f => (Finset.univ : Finset (Fin 2048)).fold max (Ideal.ofBits .f32 0xFF800000#32) f)
    (funext fun k => tile_logit m c t r k)

theorem tile_wt (c : Dev nD) (t : Fin cfg0.N) (r : Fin 512) (k : Fin 2048) :
    twt (View.ld (Val := Elt Ideal) (e' := .f32) (qC m c (bt t)) (tileRows (grid0.coords t))) (kC m c (bt t)) (mb m c t) r k
      = Cert.Spec.wt (X m c) (Mk m c) (Wt m c) (Av m c) (bt t) (row t r) k := by
  unfold twt Cert.Spec.wt
  rw [tile_logit, tile_max]

/-- THE OUTPUT BLOCK at an entry: row r, feature o of the tile of grid point t is the specification's result at row
    512 · (t mod 4) + r of batch t / 4. -/
theorem out_apply (c : Dev nD) (t : Fin cfg0.N) (r : Fin 512) (o : Fin 256) :
    (outsAt0 m c t.val t.isLt).1 (ix3 0 r o)
      = Cert.Spec.outK (X m c) (Mk m c) (Wt m c) (Av m c) (Bs m c) (bt t) (row t r) o := by
  rw [out_eq, pay1_apply, pay6_apply]
  unfold Cert.Spec.outK Cert.Spec.den
  rw [show bb m c t (ix1 o) = Bs m c (ix1 o) from iblk4_apply m c t o]
  simp only [tile_wt]
  rfl

end Cert.KernelIdeal.KInv
end
-- ==== Proof.KFinal.lean ====
/-
  From the output blocks to the result array: grid point t writes back rows 512 · (t mod 4) … of batch t / 4, each
  entry the specification's result there; the 32 blocks tile the array, so after the run the array is that function
  of the argument arrays at every entry.
-/
import proofs.«424068_j66374424592902_3_alg».proof.Proof.Gen.KernelIdeal.Value
import proofs.«424068_j66374424592902_3_alg».proof.Proof.KInv

noncomputable section

namespace Cert.KernelIdeal.KFinal

open Cert.KernelIdeal Cert.KernelIdeal.Gen Cert.KernelIdeal.Value Idealize.ShloMosaic Idealize.ShloMosaic.TcCoe Idealize.SL.Sem
open Idealize.ShloMosaic.ValueIdx Cert.KernelIdeal.KBlocks Cert.KernelIdeal.KInv
open Idealize.ShloMosaic.Pipeline (Dat)

variable (m : (ℓ : Loc nD τ sig) → Buf (Elt Ideal) ℓ) (ρ : Dev nD → PrngReg)

/-- The result as one function of the argument arrays, entry by entry. -/
def G (c : Dev nD) : S8x2048x256.Idx → EReal :=
  fun j => Cert.Spec.outK (X m c) (Mk m c) (Wt m c) (Av m c) (Bs m c) (j 0) (j 1) (j 2)

/-- What grid point t writes back is its block of that function. -/
theorem flushed_eq (c : Dev nD) (t : Fin cfg0.N) :
    (dats m 0 c).flushed 5 t = ((cfg0.win 5).blk t).view.read (Elt Ideal) (G m c) := by
  rw [flushed5]
  funext y
  obtain ⟨z, r, o, rfl⟩ : ∃ (z : Fin 1) (r : Fin 512) (o : Fin 256), y = ix3 z r o := ⟨y 0, y 1, y 2, eq_ix3 y⟩
  obtain rfl : z = 0 := Subsingleton.elim _ _
  show (outsAt0 m c t.val t.isLt).1 (ix3 0 r o) = G m c (((cfg0.win 5).blk t).view.emb (ix3 0 r o))
  rw [out_apply]
  unfold G
  obtain ⟨h0, h1, h2⟩ := idx5 t
  have e0 : (((cfg0.win 5).blk t).view.emb (ix3 0 r o)) 0 = bt t := by
    apply Fin.ext; show win0_5.index t 0 * 1 + 1 * 0 = t.val / 4; rw [h0]; omega
  have e1 : (((cfg0.win 5).blk t).view.emb (ix3 0 r o)) 1 = row t r := by
    apply Fin.ext; show win0_5.index t 1 * 512 + 1 * r.val = 512 * (t.val % 4) + r.val; rw [h1]; omega
  have e2 : (((cfg0.win 5).blk t).view.emb (ix3 0 r o)) 2 = o := by
    apply Fin.ext; show win0_5.index t 2 * 256 + 1 * o.val = o.val; rw [h2]; omega
  rw [e0, e1, e2]

/-- An entry of the array is in grid point t's block iff each coordinate is in the block's range on its axis. -/
theorem mem_blk (t : Fin cfg0.N) (i : S8x2048x256.Idx) :
    i ∈ ((cfg0.win 5).blk t).view.set ↔ ∀ a : Fin 3, win0_5.index t a * S1x512x256.size a ≤ (i a).val ∧ (i a).val < win0_5.index t a * S1x512x256.size a + S1x512x256.size a := by
  show i ∈ ((View.whole main_v0).slice (win0_5.rect t)).set ↔ _
  rw [View.set_slice_whole, Rect.mem_set_unit]
  exact Iff.rfl

/-- Every entry lies in the block of the grid point of its batch and its row's tile. -/
theorem cover (i : S8x2048x256.Idx) : ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 256 := (i 2).isLt
  have hN : cfg0.N = 32 := N_0
  refine ⟨⟨4 * (i 0).val + (i 1).val / 512, by omega⟩, flush0_5 _, ?_⟩
  rw [mem_blk]
  obtain ⟨h0, h1, h2⟩ := idx5 ⟨4 * (i 0).val + (i 1).val / 512, by omega⟩
  intro a
  match a with
  | ⟨0, _⟩ => show win0_5.index _ 0 * 1 ≤ (i 0).val ∧ (i 0).val < win0_5.index _ 0 * 1 + 1; rw [h0]; dsimp only; omega
  | ⟨1, _⟩ => show win0_5.index _ 1 * 512 ≤ (i 1).val ∧ (i 1).val < win0_5.index _ 1 * 512 + 512; rw [h1]; dsimp only; omega
  | ⟨2, _⟩ => show win0_5.index _ 2 * 256 ≤ (i 2).val ∧ (i 2).val < win0_5.index _ 2 * 256 + 256; rw [h2]; omega

/-- The result array after the run. -/
theorem final (c : Dev nD) : (dats m 0 c).arrAt 5 cfg0.N = G m c :=
  (dats m 0 c).arrAt_eq_of_cover 5 (G m c) (fun t _ => flushed_eq m c t) cover

/-- The kernel's run, read: the result array at the specification's function of the arguments, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.KFinal
end
-- ==== Proof.RefTerm.lean ====
/-
  The reference's host operations, composed: what its result buffer holds as ONE function of the five arguments,
  cut into the stages a reader meets: the projected features, the additive scores laid out as a square, the
  rectifier and the mask, the row softmax, and the weighted sum of the features plus the bias.
-/
import proofs.«424068_j66374424592902_3_alg».proof.Proof.Gen.ReferenceIdeal

noncomputable section

namespace Cert.RefTerm

open Cert.ReferenceIdeal Idealize.ShloMosaic
open Cert.ReferenceIdeal.Facts₀

variable {F : FTy → Type} [FloatOps F]

/-- The projected features: x contracted with W over the input features. -/
def hidR (x : FVec F S8x2048x256 .f32) (W : FVec F S256x256 .f32) : FVec F S8x2048x256 .f32 :=
  Host.dotGeneral dot_S8x2048x256_S256x256_S8x2048x256_2_1_01_0_n_n none x W

/-- The two additive scores of every row (the features against the two rows of a), the first laid down the
    rows of a square and the second along its columns, added. -/
def scoreR (h : FVec F S8x2048x256 .f32) (a : FVec F S2x256 .f32) : FVec F S8x2048x2048 .f32 :=
  let v1 : FVec F S8x2048x2 .f32 := Host.dotGeneral dot_S8x2048x256_S2x256_S8x2048x2_2_1_01_0_n_n none h a
  addf
    (broadcastInDim S8x2048x2048 ![0, 1, 2] bcast_S8x2048x1_S8x2048x2048_0_1_2
      (broadcastInDim S8x2048x1 ![0, 1] bcast_S8x2048_S8x2048x1_0_1
        (shapeCast S8x2048 (extractStridedSlice S8x2048x1 ![0, 0, 0] v1 slices_S8x2048x2_S8x2048x1_0_0_0)
          shapeCasts_S8x2048x1_S8x2048)))
    (broadcastInDim S8x2048x2048 ![0, 1, 2] bcast_S8x1x2048_S8x2048x2048_0_1_2
      (broadcastInDim S8x1x2048 ![0, 2] bcast_S8x2048_S8x1x2048_0_2
        (shapeCast S8x2048 (extractStridedSlice S8x2048x1 ![0, 0, 1] v1 slices_S8x2048x2_S8x2048x1_0_0_1)
          shapeCasts_S8x2048x1_S8x2048)))

/-- The leaky rectifier, then the mask. -/
def logitR (s : FVec F S8x2048x2048 .f32) (mask : IVec S8x2048x2048 32) : FVec F S8x2048x2048 .f32 :=
  let lr : FVec F S8x2048x2048 .f32 :=
    select (cmpf .oge s (broadcastInDim S8x2048x2048 ![] bcast_S_S8x2048x2048 (constant (F := F) S_ .f32 0x00000000#32)))
      s (mulf (broadcastInDim S8x2048x2048 ![] bcast_S_S8x2048x2048 (constant (F := F) S_ .f32 0x3E4CCCCD#32)) s)
  select (cmpi .sgt mask (broadcastInDim S8x2048x2048 ![] bcast_S_S8x2048x2048 (constantI S_ 32 0#32)))
    lr (addf lr (broadcastInDim S8x2048x2048 ![] bcast_S_S8x2048x2048 (constant (F := F) S_ .f32 0xD368D4A5#32)))

/-- The softmax along the last axis: exponentials of the differences to the row maximum, over their row sum. -/
def softmaxR (lg : FVec F S8x2048x2048 .f32) : FVec F S8x2048x2048 .f32 :=
  let mx : FVec F S8x2048 .f32 :=
    maximumf (broadcastInDim S8x2048 ![] bcast_S_S8x2048 (constant (F := F) S_ .f32 0xFF800000#32))
      (Host.reduce FloatOps.maximumf lg (constant (F := F) S_ .f32 0xFF800000#32) reducesTo_S8x2048x2048_S8x2048_d2 h_S_)
  let e : FVec F S8x2048x2048 .f32 :=
    Host.exp (subf lg (broadcastInDim S8x2048x2048 ![0, 1, 2] bcast_S8x2048x1_S8x2048x2048_0_1_2
      (broadcastInDim S8x2048x1 ![0, 1] bcast_S8x2048_S8x2048x1_0_1 mx)))
  Host.divf e (broadcastInDim S8x2048x2048 ![0, 1, 2] bcast_S8x2048x1_S8x2048x2048_0_1_2
    (broadcastInDim S8x2048x1 ![0, 1] bcast_S8x2048_S8x2048x1_0_1
      (Host.reduceAdd e (constant (F := F) S_ .f32 0x00000000#32) reducesTo_S8x2048x2048_S8x2048_d2 h_S_)))

/-- The reference's result: the attention weights against the projected features, batch by batch, plus the bias. -/
def refOut (x : FVec F S8x2048x256 .f32) (mask : IVec S8x2048x2048 32) (W : FVec F S256x256 .f32)
    (a : FVec F S2x256 .f32) (bias : FVec F S256 .f32) : FVec F S8x2048x256 .f32 :=
  let h : FVec F S8x2048x256 .f32 := hidR x W
  addf
    (Host.dotGeneral dot_S8x2048x2048_S8x2048x256_S8x2048x256_2_1_1_2_0_0 none (softmaxR (logitR (scoreR h a) mask)) h)
    (broadcastInDim S8x2048x256 ![0, 1, 2] bcast_S1x1x256_S8x2048x256_0_1_2
      (broadcastInDim S1x1x256 ![2] bcast_S256_S1x1x256_2 bias))

end Cert.RefTerm

end
-- ==== Proof.RefRun.lean ====
/-
  The reference's run: its host operations in order, and that every execution ends with the result buffer at their
  composition (`Cert.RefTerm.refOut` of the five arguments) and the arguments unchanged.
-/
import proofs.«424068_j66374424592902_3_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's operations as one straight line, the two outlined functions written out where they are called.
    First the projection of the features and their two scores per row; the scores cut apart, laid out along the rows
    and along the columns of a square, and added. Then the rectifier: its seven operations run over the call's own
    buffers (the zero and its square, the comparison against it, the slope passed through unchanged and its square,
    the product, and the choice between the score and the product, which lands in the call's result). Then the mask:
    the integer zero and its square, the comparison, the large negative constant added, and the second choice. Then
    the softmax along the last axis (row maximum against minus infinity, difference, exponential, row sum, quotient),
    and last the weights against the projected features, batch by batch, plus the bias laid out over every row. -/
abbrev ops : List (HloOp τ sig (Elt F)) :=
  [ binary main_arg0 main_arg2 main_v0 (fun l r => Host.dotGeneral dot_S8x2048x256_S256x256_S8x2048x256_2_1_01_0_n_n none l r),
    binary main_v0 main_arg3 main_v1 (fun l r => Host.dotGeneral dot_S8x2048x256_S2x256_S8x2048x2_2_1_01_0_n_n none l r),
    unary main_v1 main_v2 (extractStridedSlice S8x2048x1 ![0, 0, 0] · slices_S8x2048x2_S8x2048x1_0_0_0),
    reshape main_v2 main_v3 rfl shapeCasts_S8x2048x1_S8x2048,
    unary main_v1 main_v4 (extractStridedSlice S8x2048x1 ![0, 0, 1] · slices_S8x2048x2_S8x2048x1_0_0_1),
    reshape main_v4 main_v5 rfl shapeCasts_S8x2048x1_S8x2048,
    unary main_v3 main_v6 (broadcastInDim S8x2048x1 ![0, 1] bcast_S8x2048_S8x2048x1_0_1),
    unary main_v5 main_v7 (broadcastInDim S8x1x2048 ![0, 2] bcast_S8x2048_S8x1x2048_0_2),
    unary main_v6 main_v8 (broadcastInDim S8x2048x2048 ![0, 1, 2] bcast_S8x2048x1_S8x2048x2048_0_1_2),
    unary main_v7 main_v9 (broadcastInDim S8x2048x2048 ![0, 1, 2] bcast_S8x1x2048_S8x2048x2048_0_1_2),
    binary main_v8 main_v9 main_v10 addf,
    nullary main_cst (constant S_ .f32 0x3E4CCCCD#32),
    TRef.nullary main_call0.cst (constant S_ .f32 0x00000000#32),
    TRef.unary main_call0.cst main_call0.v0 (broadcastInDim S8x2048x2048 ![] bcast_S_S8x2048x2048),
    TRef.binary (.of main_v10) main_call0.v0 main_call0.v1 (cmpf .oge),
    TRef.unary (.of main_cst) main_call0.v2 id,
    TRef.unary main_call0.v2 main_call0.v3 (broadcastInDim S8x2048x2048 ![] bcast_S_S8x2048x2048),
    TRef.binary main_call0.v3 (.of main_v10) main_call0.v4 mulf,
    TRef.ternary main_call0.v1 (.of main_v10) main_call0.v4 main_call0.call0.v0 select,
    nullary main_c (constantI S_ 32 0#32),
    unary main_c main_v12 (broadcastInDim S8x2048x2048 ![] bcast_S_S8x2048x2048),
    binary main_arg1 main_v12 main_v13 (cmpi .sgt),
    nullary main_cst_0 (constant S_ .f32 0xD368D4A5#32),
    unary main_cst_0 main_v14 (broadcastInDim S8x2048x2048 ![] bcast_S_S8x2048x2048),
    binary main_v11 main_v14 main_v15 addf,
    TRef.ternary (.of main_v13) (.of main_v11) (.of main_v15) main_call1.v0 select,
    nullary main_cst_1 (constant S_ .f32 0xFF800000#32),
    binary main_v16 main_cst_1 main_v17 (fun x v => Host.reduce FloatOps.maximumf x v reducesTo_S8x2048x2048_S8x2048_d2 h_S_),
    nullary main_cst_2 (constant S_ .f32 0xFF800000#32),
    unary main_cst_2 main_v18 (broadcastInDim S8x2048 ![] bcast_S_S8x2048),
    binary main_v18 main_v17 main_v19 maximumf,
    unary main_v19 main_v20 (broadcastInDim S8x2048x1 ![0, 1] bcast_S8x2048_S8x2048x1_0_1),
    unary main_v20 main_v21 (broadcastInDim S8x2048x2048 ![0, 1, 2] bcast_S8x2048x1_S8x2048x2048_0_1_2),
    binary main_v16 main_v21 main_v22 subf,
    unary main_v22 main_v23 Host.exp,
    nullary main_cst_3 (constant S_ .f32 0x00000000#32),
    binary main_v23 main_cst_3 main_v24 (fun x v => Host.reduceAdd x v reducesTo_S8x2048x2048_S8x2048_d2 h_S_),
    unary main_v24 main_v25 (broadcastInDim S8x2048x1 ![0, 1] bcast_S8x2048_S8x2048x1_0_1),
    unary main_v25 main_v26 (broadcastInDim S8x2048x2048 ![0, 1, 2] bcast_S8x2048x1_S8x2048x2048_0_1_2),
    binary main_v23 main_v26 main_v27 Host.divf,
    binary main_v27 main_v0 main_v28 (fun l r => Host.dotGeneral dot_S8x2048x2048_S8x2048x256_S8x2048x256_2_1_1_2_0_0 none l r),
    unary main_arg4 main_v29 (broadcastInDim S1x1x256 ![2] bcast_S256_S1x1x256_2),
    unary main_v29 main_v30 (broadcastInDim S8x2048x256 ![0, 1, 2] bcast_S1x1x256_S8x2048x256_0_1_2),
    binary main_v28 main_v30 main_v31 addf ]

-- the program is forty-four steps deep, and bringing its sequencing into right-nested form descends through all of them
set_option maxRecDepth 1024 in
/-- @main runs exactly that line. The rectifier's body and the choice's body stand where they are called, each over
    the buffers of its call's record, so after right-nesting the sequencing the program and the line are the same
    chain of steps, one per operation, ending in the return. -/
theorem main_eq (c : Dev nD) : main (F := F) c = seq ops := by
  simp only [main, fn_leaky_relu.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the TensorCore only. -/
theorem ops_sub : (ops : List (HloOp τ sig (Elt F))).Forall fun op => op.bufs ⊆ tcRefs τ sig :=
  ⟨binary_bufs_sub .., binary_bufs_sub .., unary_bufs_sub .., reshape_bufs_sub .., unary_bufs_sub .., reshape_bufs_sub ..,
    unary_bufs_sub .., unary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    nullary_bufs_sub .., unary_bufs_sub .., binary_bufs_sub .., nullary_bufs_sub .., unary_bufs_sub .., binary_bufs_sub ..,
    ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub .., unary_bufs_sub .., unary_bufs_sub .., binary_bufs_sub ..⟩

attribute [local irreducible] Host.reduce Host.reduceAdd Host.exp Host.divf in
/-- What the result buffer holds once the line has run from contents `V`: the composed function of what `V` has at
    the five arguments. -/
theorem out_eq (V : Valuation τ sig (Elt F)) :
    after ops V (main_v31 : DevRef τ sig)
      = Cert.RefTerm.refOut (V (main_arg0 : DevRef τ sig)) (V (main_arg1 : DevRef τ sig)) (V (main_arg2 : DevRef τ sig))
          (V (main_arg3 : DevRef τ sig)) (V (main_arg4 : DevRef τ sig)) := by
  after_results_simp
  rfl

/-- From any memory with zero counters every weakly fair execution of the reference terminates, its result at the
    composed function of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
          = Cert.RefTerm.refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v31).trans (out_eq _),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.RefRun

end
-- ==== Proof.RefReadB.lean ====
/-
  The reference's rectifier-and-mask stage and its row softmax, read at an entry.
-/
import proofs.«424068_j66374424592902_3_alg».proof.Proof.RefTerm
import proofs.«424068_j66374424592902_3_alg».proof.Proof.Spec
import Idealize.ShloMosaic.PureOps.Ideal.Laws
import Idealize.ShloMosaic.Lib.IdealHost
import Idealize.ShloMosaic.PureOps.Reduce

noncomputable section

namespace Cert.RefRead

open Cert.ReferenceIdeal Idealize.ShloMosaic Idealize.ShloMosaic.ValueIdx

/-- The rectifier and the mask act entry by entry. -/
theorem logitR_apply (s : FVec Ideal S8x2048x2048 .f32) (mask : IVec S8x2048x2048 32) (j : S8x2048x2048.Idx) :
    Cert.RefTerm.logitR (F := Ideal) s mask j = Cert.Spec.masked (mask j) (Cert.Spec.lrelu (s j)) := by
  rfl

/-- A per-row vector laid along a new last unit axis and then across every column reads, at (b, n, m), as the vector at
    (b, n). -/
theorem rowBcast_apply {α : Type} (v : S8x2048.Idx → α) (b : Fin 8) (n m : Fin 2048) :
    broadcastInDim S8x2048x2048 ![0, 1, 2] Facts₀.bcast_S8x2048x1_S8x2048x2048_0_1_2
      (broadcastInDim S8x2048x1 ![0, 1] Facts₀.bcast_S8x2048_S8x2048x1_0_1 v) (ix3 b n m) = v (ix2 b n) := by
  unfold broadcastInDim
  refine congrArg v (funext fun a => ?_)
  match a with
  | ⟨0, _⟩ => rfl
  | ⟨1, _⟩ => rfl

/-- Row (b, n) with the column k put back is the entry (b, n, k). -/
theorem lift_row (h : S8x2048x2048.Reduces [2] S8x2048) (b : Fin 8) (n k : Fin 2048) :
    h.lift (ix2 b n) k = ix3 b n k := by
  funext a
  match a with
  | ⟨0, _⟩ => rfl
  | ⟨1, _⟩ => rfl
  | ⟨2, _⟩ => rfl

/-- The float pattern of -∞ is the least extended real. -/
theorem ofBits_neg_inf : Ideal.ofBits .f32 0xFF800000#32 = (⊥ : EReal) := by
  simp [Ideal.ofBits, Ideal.ieee]

/-- The reference's row maximum at (b, n): the fold of max over the row's entries, from -∞. -/
theorem rowMax_apply (lg : FVec Ideal S8x2048x2048 .f32) (b : Fin 8) (n : Fin 2048) :
    maximumf (broadcastInDim S8x2048 ![] Facts₀.bcast_S_S8x2048 (constant (F := Ideal) S_ .f32 0xFF800000#32))
      (Host.reduce FloatOps.maximumf lg (constant (F := Ideal) S_ .f32 0xFF800000#32)
        Facts₀.reducesTo_S8x2048x2048_S8x2048_d2 Facts₀.h_S_) (ix2 b n)
      = (Finset.univ : Finset (Fin 2048)).fold max (Ideal.ofBits .f32 0xFF800000#32) (fun k => lg (ix3 b n k)) := by
  have h : S8x2048x2048.Reduces [2] S8x2048 := by decide
  rw [maximumf_apply, Host.reduce_eq_fold_single FloatOps.maximumf lg _ _ h Facts₀.h_S_ (ix2 b n)]
  have hf : (lg ∘ h.lift (ix2 b n)) = fun k : Fin 2048 => lg (ix3 b n k) := by
    funext k; exact congrArg lg (lift_row h b n k)
  rw [hf]
  show max (Ideal.ofBits .f32 0xFF800000#32)
      ((Finset.univ : Finset (Fin 2048)).fold max (Ideal.ofBits .f32 0xFF800000#32) (fun k => lg (ix3 b n k))) = _
  rw [ofBits_neg_inf]
  exact max_eq_right bot_le

/-- The reference's row sum at (b, n): the sum of the row's entries. -/
theorem rowSum_apply (e : FVec Ideal S8x2048x2048 .f32) (b : Fin 8) (n : Fin 2048) :
    Host.reduceAdd e (constant (F := Ideal) S_ .f32 0x00000000#32)
        Facts₀.reducesTo_S8x2048x2048_S8x2048_d2 Facts₀.h_S_ (ix2 b n)
      = ∑ k : Fin 2048, e (ix3 b n k) := by
  have h : S8x2048x2048.Reduces [2] S8x2048 := by decide
  rw [hostReduceAdd_apply, Ideal.hostReduceAdd_single _ h]
  show Ideal.ofBits .f32 0x00000000#32 + ∑ k : Fin 2048, e (h.lift (ix2 b n) k) = _
  rw [Ideal.ofBits_zero_f32, zero_add]
  exact Finset.sum_congr rfl fun k _ => congrArg e (lift_row h b n k)

/-- The host's exponential acts entry by entry. -/
theorem hostExp_apply (x : FVec Ideal S8x2048x2048 .f32) (j : S8x2048x2048.Idx) :
    Host.exp x j = Ideal.exp (x j) := rfl

/-- The softmax at (b, n, m): the exponential of the entry's difference to its row's maximum, over the row's sum of
    such exponentials. -/
theorem softmaxR_apply (lg : FVec Ideal S8x2048x2048 .f32) (b : Fin 8) (n m : Fin 2048) :
    Cert.RefTerm.softmaxR (F := Ideal) lg (ix3 b n m)
      = Ideal.div
          (Ideal.exp (lg (ix3 b n m)
            - (Finset.univ : Finset (Fin 2048)).fold max (Ideal.ofBits .f32 0xFF800000#32) (fun k => lg (ix3 b n k))))
          (∑ k' : Fin 2048, Ideal.exp (lg (ix3 b n k')
            - (Finset.univ : Finset (Fin 2048)).fold max (Ideal.ofBits .f32 0xFF800000#32) (fun k => lg (ix3 b n k)))) := by
  simp only [Cert.RefTerm.softmaxR]
  rw [hostDivf_apply, rowBcast_apply, rowSum_apply]
  simp only [hostExp_apply, subf_apply]
  rw [rowBcast_apply, rowMax_apply]
  refine congrArg (Ideal.div _) (Finset.sum_congr rfl fun k _ => ?_)
  rw [rowBcast_apply, rowMax_apply]

end Cert.RefRead

end
-- ==== Proof.RefReadA.lean ====
/-
  The reference's three contractions and its bias, read at an entry, and the whole result as the specification's
  function `Cert.Spec.outR` of the arguments.
-/
import proofs.«424068_j66374424592902_3_alg».proof.Proof.RefReadB
import Idealize.ShloMosaic.Lib.Pipeline.Value

noncomputable section

namespace Cert.RefRead

open Cert.ReferenceIdeal Cert.ReferenceIdeal.Facts₀ Idealize.ShloMosaic Idealize.ShloMosaic.ValueIdx

/-! ## The three contractions' operand indices

Each record contracts one axis, so its contraction index is one coordinate k; at the output entry (b, n, o) the
operands are read at the entries below.  The coordinates off the contracted axis are read off the output entry, the
contracted one is k. -/

/-- The projection x·Wᵀ reads x at (b, n, k) … -/
theorem lhsIdx_hid (b : Fin 8) (n : Fin 2048) (o : Fin 256) (k : Fin 256) :
    dot_S8x2048x256_S256x256_S8x2048x256_2_1_01_0_n_n.lhsIdx (ix3 b n o)
      ((contrEquiv1 dot_S8x2048x256_S256x256_S8x2048x256_2_1_01_0_n_n 256 rfl rfl).symm k) = ix3 b n k := by
  have hk := contrEquiv1_symm_val dot_S8x2048x256_S256x256_S8x2048x256_2_1_01_0_n_n 256 rfl rfl k
  funext a
  apply Fin.ext
  match a with
  | ⟨0, _⟩ => rfl
  | ⟨1, _⟩ => rfl
  | ⟨2, _⟩ => exact (dot_S8x2048x256_S256x256_S8x2048x256_2_1_01_0_n_n.lhsIdx_val_of_single rfl (ix3 b n o) _).trans hk

/-- … and W at (o, k). -/
theorem rhsIdx_hid (b : Fin 8) (n : Fin 2048) (o : Fin 256) (k : Fin 256) :
    dot_S8x2048x256_S256x256_S8x2048x256_2_1_01_0_n_n.rhsIdx (ix3 b n o)
      ((contrEquiv1 dot_S8x2048x256_S256x256_S8x2048x256_2_1_01_0_n_n 256 rfl rfl).symm k) = ix2 o k := by
  have hk := contrEquiv1_symm_val dot_S8x2048x256_S256x256_S8x2048x256_2_1_01_0_n_n 256 rfl rfl k
  funext a
  apply Fin.ext
  match a with
  | ⟨0, _⟩ => rfl
  | ⟨1, _⟩ => exact (dot_S8x2048x256_S256x256_S8x2048x256_2_1_01_0_n_n.rhsIdx_val_of_single rfl (ix3 b n o) _).trans hk

/-- The two scores h·aᵀ read h at (b, n, k) … -/
theorem lhsIdx_att (b : Fin 8) (n : Fin 2048) (c : Fin 2) (k : Fin 256) :
    dot_S8x2048x256_S2x256_S8x2048x2_2_1_01_0_n_n.lhsIdx (ix3 b n c)
      ((contrEquiv1 dot_S8x2048x256_S2x256_S8x2048x2_2_1_01_0_n_n 256 rfl rfl).symm k) = ix3 b n k := by
  have hk := contrEquiv1_symm_val dot_S8x2048x256_S2x256_S8x2048x2_2_1_01_0_n_n 256 rfl rfl k
  funext a
  apply Fin.ext
  match a with
  | ⟨0, _⟩ => rfl
  | ⟨1, _⟩ => rfl
  | ⟨2, _⟩ => exact (dot_S8x2048x256_S2x256_S8x2048x2_2_1_01_0_n_n.lhsIdx_val_of_single rfl (ix3 b n c) _).trans hk

/-- … and a at (c, k). -/
theorem rhsIdx_att (b : Fin 8) (n : Fin 2048) (c : Fin 2) (k : Fin 256) :
    dot_S8x2048x256_S2x256_S8x2048x2_2_1_01_0_n_n.rhsIdx (ix3 b n c)
      ((contrEquiv1 dot_S8x2048x256_S2x256_S8x2048x2_2_1_01_0_n_n 256 rfl rfl).symm k) = ix2 c k := by
  have hk := contrEquiv1_symm_val dot_S8x2048x256_S2x256_S8x2048x2_2_1_01_0_n_n 256 rfl rfl k
  funext a
  apply Fin.ext
  match a with
  | ⟨0, _⟩ => rfl
  | ⟨1, _⟩ => exact (dot_S8x2048x256_S2x256_S8x2048x2_2_1_01_0_n_n.rhsIdx_val_of_single rfl (ix3 b n c) _).trans hk

/-- The batched product p·h reads p at (b, n, k) … -/
theorem lhsIdx_weighted (b : Fin 8) (n : Fin 2048) (o : Fin 256) (k : Fin 2048) :
    dot_S8x2048x2048_S8x2048x256_S8x2048x256_2_1_1_2_0_0.lhsIdx (ix3 b n o)
      ((contrEquiv1 dot_S8x2048x2048_S8x2048x256_S8x2048x256_2_1_1_2_0_0 2048 rfl rfl).symm k) = ix3 b n k := by
  have hk := contrEquiv1_symm_val dot_S8x2048x2048_S8x2048x256_S8x2048x256_2_1_1_2_0_0 2048 rfl rfl k
  funext a
  apply Fin.ext
  match a with
  | ⟨0, _⟩ => rfl
  | ⟨1, _⟩ => rfl
  | ⟨2, _⟩ => exact (dot_S8x2048x2048_S8x2048x256_S8x2048x256_2_1_1_2_0_0.lhsIdx_val_of_single rfl (ix3 b n o) _).trans hk

/-- … and h at (b, k, o). -/
theorem rhsIdx_weighted (b : Fin 8) (n : Fin 2048) (o : Fin 256) (k : Fin 2048) :
    dot_S8x2048x2048_S8x2048x256_S8x2048x256_2_1_1_2_0_0.rhsIdx (ix3 b n o)
      ((contrEquiv1 dot_S8x2048x2048_S8x2048x256_S8x2048x256_2_1_1_2_0_0 2048 rfl rfl).symm k) = ix3 b k o := by
  have hk := contrEquiv1_symm_val dot_S8x2048x2048_S8x2048x256_S8x2048x256_2_1_1_2_0_0 2048 rfl rfl k
  funext a
  apply Fin.ext
  match a with
  | ⟨0, _⟩ => rfl
  | ⟨1, _⟩ => exact (dot_S8x2048x2048_S8x2048x256_S8x2048x256_2_1_1_2_0_0.rhsIdx_val_of_single rfl (ix3 b n o) _).trans hk
  | ⟨2, _⟩ => rfl

/-! ## The contractions at an entry -/

/-- The projected features at (b, n, o): row n of batch b of x against row o of W. -/
theorem hidR_apply (x : FVec Ideal S8x2048x256 .f32) (W : FVec Ideal S256x256 .f32) (b : Fin 8) (n : Fin 2048) (o : Fin 256) :
    Cert.RefTerm.hidR (F := Ideal) x W (ix3 b n o) = ∑ i : Fin 256, x (ix3 b n i) * W (ix2 o i) := by
  unfold Cert.RefTerm.hidR
  simp only [Host.dotGeneral]
  rw [Ideal.dotGeneral_apply,
    ← Equiv.sum_comp (contrEquiv1 dot_S8x2048x256_S256x256_S8x2048x256_2_1_01_0_n_n 256 rfl rfl).symm]
  refine Finset.sum_congr rfl fun k _ => ?_
  rw [lhsIdx_hid, rhsIdx_hid]

/-- The two additive scores at (b, n, c): the features of row n against row c of a. -/
theorem attR_apply (h : FVec Ideal S8x2048x256 .f32) (a : FVec Ideal S2x256 .f32) (b : Fin 8) (n : Fin 2048) (c : Fin 2) :
    Host.dotGeneral (F := Ideal) dot_S8x2048x256_S2x256_S8x2048x2_2_1_01_0_n_n none h a (ix3 b n c)
      = ∑ o : Fin 256, h (ix3 b n o) * a (ix2 c o) := by
  simp only [Host.dotGeneral]
  rw [Ideal.dotGeneral_apply,
    ← Equiv.sum_comp (contrEquiv1 dot_S8x2048x256_S2x256_S8x2048x2_2_1_01_0_n_n 256 rfl rfl).symm]
  refine Finset.sum_congr rfl fun k _ => ?_
  rw [lhsIdx_att, rhsIdx_att]

/-- The batched product of the weights with the features at (b, n, o). -/
theorem weighted_apply (p : FVec Ideal S8x2048x2048 .f32) (h : FVec Ideal S8x2048x256 .f32) (b : Fin 8) (n : Fin 2048) (o : Fin 256) :
    Host.dotGeneral (F := Ideal) dot_S8x2048x2048_S8x2048x256_S8x2048x256_2_1_1_2_0_0 none p h (ix3 b n o)
      = ∑ m : Fin 2048, p (ix3 b n m) * h (ix3 b m o) := by
  simp only [Host.dotGeneral]
  rw [Ideal.dotGeneral_apply,
    ← Equiv.sum_comp (contrEquiv1 dot_S8x2048x2048_S8x2048x256_S8x2048x256_2_1_1_2_0_0 2048 rfl rfl).symm]
  refine Finset.sum_congr rfl fun k _ => ?_
  rw [lhsIdx_weighted, rhsIdx_weighted]

/-! ## The layout chains at an entry -/

section Layout
variable {α : Type}

/-- A [8,2048] array laid down the rows of the square ([8,2048] → [8,2048,1] → [8,2048,2048]) reads at (b, n, m)
    its entry (b, n). -/
theorem downRows_apply (u : S8x2048.Idx → α) (b : Fin 8) (n m : Fin 2048) :
    broadcastInDim S8x2048x2048 ![0, 1, 2] bcast_S8x2048x1_S8x2048x2048_0_1_2
      (broadcastInDim S8x2048x1 ![0, 1] bcast_S8x2048_S8x2048x1_0_1 u) (ix3 b n m) = u (ix2 b n) := by
  refine (broadcastInDim_apply _ _ _ (ix3 b n m) (ix3 b n (0 : Fin 1)) fun ax => ?_).trans ?_
  · match ax with
    | ⟨0, _⟩ => rfl
    | ⟨1, _⟩ => rfl
    | ⟨2, _⟩ => rfl
  · refine broadcastInDim_apply _ _ _ (ix3 b n (0 : Fin 1)) (ix2 b n) fun ax => ?_
    match ax with
    | ⟨0, _⟩ => rfl
    | ⟨1, _⟩ => rfl

/-- A [8,2048] array laid along the columns of the square ([8,2048] → [8,1,2048] → [8,2048,2048]) reads at (b, n, m)
    its entry (b, m). -/
theorem alongCols_apply (u : S8x2048.Idx → α) (b : Fin 8) (n m : Fin 2048) :
    broadcastInDim S8x2048x2048 ![0, 1, 2] bcast_S8x1x2048_S8x2048x2048_0_1_2
      (broadcastInDim S8x1x2048 ![0, 2] bcast_S8x2048_S8x1x2048_0_2 u) (ix3 b n m) = u (ix2 b m) := by
  refine (broadcastInDim_apply _ _ _ (ix3 b n m) (ix3 b (0 : Fin 1) m) fun ax => ?_).trans ?_
  · match ax with
    | ⟨0, _⟩ => rfl
    | ⟨1, _⟩ => rfl
    | ⟨2, _⟩ => rfl
  · refine broadcastInDim_apply _ _ _ (ix3 b (0 : Fin 1) m) (ix2 b m) fun ax => ?_
    match ax with
    | ⟨0, _⟩ => rfl
    | ⟨1, _⟩ => rfl

/-- Column c of a [8,2048,2] array, cut out as [8,2048,1] and reshaped to [8,2048], reads at (b, n) the entry (b, n, c). -/
theorem column_apply (v : S8x2048x2.Idx → α) (c : Fin 2) (hs : S8x2048x2.Slices ![0, 0, c.val] S8x2048x1) (b : Fin 8) (n : Fin 2048) :
    shapeCast S8x2048 (extractStridedSlice S8x2048x1 ![0, 0, c.val] v hs) shapeCasts_S8x2048x1_S8x2048 (ix2 b n)
      = v (ix3 b n c) := by
  refine (shapeCast_apply _ _ (ix2 b n) (ix3 b n (0 : Fin 1)) ?_).trans ?_
  · rw [Shape.rowMajor_val_three, Shape.rowMajor_val_two]
    show (b.val * 2048 + n.val) * 1 + 0 = b.val * 2048 + n.val
    omega
  · refine extractStridedSlice_apply _ _ _ (ix3 b n (0 : Fin 1)) (ix3 b n c) fun ax => ?_
    match ax with
    | ⟨0, _⟩ => exact (Nat.zero_add _).symm
    | ⟨1, _⟩ => exact (Nat.zero_add _).symm
    | ⟨2, _⟩ => rfl

/-- The bias laid over the result ([256] → [1,1,256] → [8,2048,256]) reads at (b, n, o) its entry o. -/
theorem biasBroadcast_apply (u : S256.Idx → α) (b : Fin 8) (n : Fin 2048) (o : Fin 256) :
    broadcastInDim S8x2048x256 ![0, 1, 2] bcast_S1x1x256_S8x2048x256_0_1_2
      (broadcastInDim S1x1x256 ![2] bcast_S256_S1x1x256_2 u) (ix3 b n o) = u (ix1 o) := by
  refine (broadcastInDim_apply _ _ _ (ix3 b n o) (ix3 (0 : Fin 1) (0 : Fin 1) o) fun ax => ?_).trans ?_
  · match ax with
    | ⟨0, _⟩ => rfl
    | ⟨1, _⟩ => rfl
    | ⟨2, _⟩ => rfl
  · refine broadcastInDim_apply _ _ _ (ix3 (0 : Fin 1) (0 : Fin 1) o) (ix1 o) fun ax => ?_
    match ax with
    | ⟨0, _⟩ => rfl

end Layout

/-! ## The square of added scores -/

/-- The square of added scores at (b, n, m): the features of row n against row 0 of a plus those of row m against row 1. -/
theorem scoreR_apply (h : FVec Ideal S8x2048x256 .f32) (a : FVec Ideal S2x256 .f32) (b : Fin 8) (n m : Fin 2048) :
    Cert.RefTerm.scoreR (F := Ideal) h a (ix3 b n m)
      = (∑ o : Fin 256, h (ix3 b n o) * a (ix2 0 o)) + (∑ o : Fin 256, h (ix3 b m o) * a (ix2 1 o)) := by
  unfold Cert.RefTerm.scoreR
  dsimp only
  rw [addf_apply, downRows_apply, alongCols_apply]
  refine congrArg₂ (· + ·) ?_ ?_
  · exact (column_apply _ 0 _ b n).trans (attR_apply h a b n 0)
  · exact (column_apply _ 1 _ b m).trans (attR_apply h a b m 1)

/-! ## The whole result -/

/-- The reference's masked, rectified score of query n against key m is the specification's. -/
theorem logitR_eq (x : FVec Ideal S8x2048x256 .f32) (mask : IVec S8x2048x2048 32) (W : FVec Ideal S256x256 .f32)
    (a : FVec Ideal S2x256 .f32) (b : Fin 8) (n m : Fin 2048) :
    Cert.RefTerm.logitR (F := Ideal) (Cert.RefTerm.scoreR (F := Ideal) (Cert.RefTerm.hidR (F := Ideal) x W) a) mask (ix3 b n m)
      = Cert.Spec.logit x mask W a b n m := by
  rw [logitR_apply, scoreR_apply]
  unfold Cert.Spec.logit Cert.Spec.att Cert.Spec.hid
  simp only [hidR_apply]

/-- The reference's result is the specification's function with the weights normalised before the product. -/
theorem refOut_eq (x : FVec Ideal S8x2048x256 .f32) (mask : IVec S8x2048x2048 32) (W : FVec Ideal S256x256 .f32)
    (a : FVec Ideal S2x256 .f32) (bias : FVec Ideal S256 .f32) :
    Cert.RefTerm.refOut (F := Ideal) x mask W a bias = fun j => Cert.Spec.outR x mask W a bias (j 0) (j 1) (j 2) := by
  funext j
  obtain ⟨b, n, o, rfl⟩ : ∃ (b : Fin 8) (n : Fin 2048) (o : Fin 256), j = ix3 b n o := ⟨j 0, j 1, j 2, eq_ix3 j⟩
  show Cert.RefTerm.refOut (F := Ideal) x mask W a bias (ix3 b n o) = Cert.Spec.outR x mask W a bias b n o
  unfold Cert.RefTerm.refOut Cert.Spec.outR
  dsimp only
  rw [addf_apply, weighted_apply, biasBroadcast_apply]
  refine congrArg (· + bias (ix1 o)) ?_
  refine Finset.sum_congr rfl fun m _ => ?_
  rw [softmaxR_apply, hidR_apply]
  simp only [logitR_eq]
  rfl

end Cert.RefRead

end
-- ==== Proof.Algebra.lean ====
/-
  The two arrangements of the result agree when the inputs are real numbers: every intermediate value is then a
  real, the row normaliser is a positive real, and dividing each weight by it before the sum against the features
  is multiplying the sum by its reciprocal afterwards (distributivity over a finite sum of reals).
-/
import proofs.«424068_j66374424592902_3_alg».proof.Proof.Spec

noncomputable section

namespace Cert.Spec

open Idealize.ShloMosaic Idealize.ShloMosaic.ValueIdx

/-- A finite sum of reals, each read as an extended real, is the real sum read as an extended real. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The float 0.2 (the rectifier's slope) is a real. -/
theorem slope_real : ∃ r : ℝ, Ideal.ofBits .f32 0x3E4CCCCD#32 = (r : EReal) := by
  simp [Ideal.ofBits, Ideal.ieee, -EReal.coe_mul]

/-- The float -1e12 (the mask's offset) is a real. -/
theorem offset_real : ∃ r : ℝ, Ideal.ofBits .f32 0xD368D4A5#32 = (r : EReal) := by
  simp [Ideal.ofBits, Ideal.ieee, -EReal.coe_mul]
  exact ⟨_, (EReal.coe_neg _).symm⟩

/-- The float 1. -/
theorem one_real : Ideal.ofBits .f32 0x3F800000#32 = ((1 : ℝ) : EReal) := by
  simp [Ideal.ofBits, Ideal.ieee, -EReal.coe_mul]; norm_num

/-- The float -∞ is the bottom element. -/
theorem negInf_bot : Ideal.ofBits .f32 0xFF800000#32 = (⊥ : EReal) := by
  simp [Ideal.ofBits, Ideal.ieee]

section
variable (x : FVec Ideal SX .f32) (mask : IVec SM 32) (W : FVec Ideal SW .f32) (a : FVec Ideal SA .f32)
  (hx : ∀ i, ∃ r : ℝ, x i = (r : EReal)) (hW : ∀ i, ∃ r : ℝ, W i = (r : EReal)) (ha : ∀ i, ∃ r : ℝ, a i = (r : EReal))
include hx hW

/-- A projected feature is a finite sum of products of reals. -/
theorem real_hid (b : Fin 8) (n : Fin 2048) (o : Fin 256) : ∃ r : ℝ, hid x W b n o = (r : EReal) := by
  choose rx hrx using hx
  choose rW hrW using hW
  refine ⟨∑ i : Fin 256, rx (ix3 b n i) * rW (ix2 o i), ?_⟩
  unfold hid
  simp only [hrx, hrW, ← EReal.coe_mul]
  exact coe_sum _ _

include ha

/-- An additive score is a finite sum of products of reals. -/
theorem real_att (k : Fin 2) (b : Fin 8) (n : Fin 2048) : ∃ r : ℝ, att x W a k b n = (r : EReal) := by
  choose rh hrh using real_hid x W hx hW
  choose ra hra using ha
  refine ⟨∑ o : Fin 256, rh b n o * ra (ix2 k o), ?_⟩
  unfold att
  simp only [hrh, hra, ← EReal.coe_mul]
  exact coe_sum _ _

omit hx hW ha in
/-- The rectifier of a real is that real or a real multiple of it. -/
theorem real_lrelu (s : ℝ) : ∃ r : ℝ, lrelu (s : EReal) = (r : EReal) := by
  obtain ⟨c, hc⟩ := slope_real
  unfold lrelu Scalar.select
  split
  · exact ⟨s, rfl⟩
  · exact ⟨c * s, by rw [hc, EReal.coe_mul]⟩

omit hx hW ha in
/-- Masking a real leaves it or adds a real to it. -/
theorem real_masked (w : BitVec 32) (v : ℝ) : ∃ r : ℝ, masked w (v : EReal) = (r : EReal) := by
  obtain ⟨c, hc⟩ := offset_real
  unfold masked Scalar.select
  split
  · exact ⟨v, rfl⟩
  · exact ⟨v + c, by rw [hc, EReal.coe_add]⟩

/-- Every masked, rectified score is a real. -/
theorem real_logit (b : Fin 8) (n m : Fin 2048) : ∃ r : ℝ, logit x mask W a b n m = (r : EReal) := by
  obtain ⟨s0, h0⟩ := real_att x W a hx hW ha 0 b n
  obtain ⟨s1, h1⟩ := real_att x W a hx hW ha 1 b m
  obtain ⟨l, hl⟩ := real_lrelu (s0 + s1)
  obtain ⟨v, hv⟩ := real_masked (mask (ix3 b n m)) l
  exact ⟨v, by unfold logit; rw [h0, h1, ← EReal.coe_add, hl, hv]⟩

/-- The largest score of a row is a real: it is below +∞ because every score is, and above -∞ because the row is
    not empty and its scores are reals. -/
theorem real_rowmax (b : Fin 8) (n : Fin 2048) : ∃ r : ℝ, rowmax x mask W a b n = (r : EReal) := by
  choose rl hrl using real_logit x mask W a hx hW ha b n
  have htop : rowmax x mask W a b n ≠ ⊤ := by
    refine ne_of_lt ?_
    unfold rowmax
    rw [Finset.fold_max_lt]
    refine ⟨by rw [negInf_bot]; exact bot_lt_top, fun m _ => ?_⟩
    rw [hrl]; exact EReal.coe_lt_top _
  have hbot : rowmax x mask W a b n ≠ ⊥ := by
    refine ne_of_gt ?_
    unfold rowmax
    rw [Finset.lt_fold_max]
    refine Or.inr ⟨0, Finset.mem_univ _, ?_⟩
    rw [hrl]; exact EReal.bot_lt_coe _
  exact ⟨_, (EReal.coe_toReal htop hbot).symm⟩

/-- An unnormalised weight is the exponential of a real: a positive real. -/
theorem real_wt (b : Fin 8) (n m : Fin 2048) : ∃ r : ℝ, 0 < r ∧ wt x mask W a b n m = (r : EReal) := by
  obtain ⟨l, hl⟩ := real_logit x mask W a hx hW ha b n m
  obtain ⟨M, hM⟩ := real_rowmax x mask W a hx hW ha b n
  refine ⟨Real.exp (l - M), Real.exp_pos _, ?_⟩
  unfold wt
  rw [hl, hM, ← EReal.coe_sub, Ideal.exp_coe]

end

/-- With real x, W and a, normalising the weights after the product with the features or before it gives the same
    result at every entry. -/
theorem outK_eq_outR (x : FVec Ideal SX .f32) (mask : IVec SM 32) (W : FVec Ideal SW .f32) (a : FVec Ideal SA .f32)
    (bias : FVec Ideal SB .f32)
    (hx : ∀ i, ∃ r : ℝ, x i = (r : EReal)) (hW : ∀ i, ∃ r : ℝ, W i = (r : EReal)) (ha : ∀ i, ∃ r : ℝ, a i = (r : EReal))
    (b : Fin 8) (n : Fin 2048) (o : Fin 256) :
    outK x mask W a bias b n o = outR x mask W a bias b n o := by
  choose rw hpos hrw using real_wt x mask W a hx hW ha b n
  choose rh hrh using fun m => real_hid x W hx hW b m o
  -- the normaliser is the positive real d
  have hd : 0 < ∑ m : Fin 2048, rw m := Finset.sum_pos (fun m _ => hpos m) Finset.univ_nonempty
  have hden : den x mask W a b n = ((∑ m : Fin 2048, rw m : ℝ) : EReal) := by
    unfold den
    simp only [hrw]
    exact coe_sum _ _
  unfold outK outR
  refine congrArg (· + bias (ix1 o)) ?_
  rw [hden, one_real]
  simp only [hrw, hrh, Ideal.div_coe hd.ne', ← EReal.coe_mul]
  rw [coe_sum, coe_sum, ← EReal.coe_mul, EReal.coe_eq_coe_iff, Finset.sum_mul]
  refine Finset.sum_congr rfl fun m _ => ?_
  ring

end Cert.Spec

end
-- ==== Proof.Finite.lean ====
/-
  The precondition, read: every entry of the three float inputs the result depends on multiplicatively is a real
  number (neither infinity).
-/
import proofs.«424068_j66374424592902_3_alg».proof.Defs
import proofs.«424068_j66374424592902_3_alg».proof.Proof.Gen.KernelIdeal
import proofs.«424068_j66374424592902_3_alg».proof.Proof.Gen.Pre_finite_inputs
import Idealize.ShloMosaic.Lib.ReduceAll
import Idealize.ShloMosaic.Lib.ValueIdx

noncomputable section

namespace Cert.Finite

open Idealize.ShloMosaic Idealize.SL.Sem

/-- The scalar shape has one index. -/
instance : Subsingleton Cert.Pre_finite_inputs.S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real whose absolute value max x (-x) lies strictly below +∞ is a real number:
    at -∞ the absolute value is +∞, at +∞ it is +∞, and neither is below +∞. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One float input: if the conjunction over all entries of |x| < +∞ is 1, every entry of x is real. -/
theorem real_of_all {S : Shape} {axes : List (Fin S.rank)}
    (hb : Cert.Pre_finite_inputs.S_.BroadcastsInDim S (![] : Fin 0 → Fin S.rank))
    (hr : S.ReducesTo axes Cert.Pre_finite_inputs.S_) (hn : 0 < Cert.Pre_finite_inputs.S_.numel)
    (x : FVec Ideal S .f32)
    (h : Host.reduce IntOp.andi
          (cmpf .olt (Host.absf x)
            (broadcastInDim S ![] hb (constant (F := Ideal) Cert.Pre_finite_inputs.S_ .f32 0x7F800000#32)))
          (constantI Cert.Pre_finite_inputs.S_ 1 1#1) hr hn ValueIdx.ix0 = 1#1) :
    ∀ i, ∃ r : ℝ, x i = (r : EReal) := by
  intro i
  have e := Host.reduce_andi_all _ _ hr hn ValueIdx.ix0 h i
  exact real_of_abs_lt_inf (x i) e

/-- Under the precondition every entry of x, W and a is a real number, on every device. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) := by
  have h0 := congrFun (h c) ValueIdx.ix0
  dsimp only [Cert.Pre_finite_inputs.fn, Cert.Pre_finite_inputs.fn_part1] at h0
  obtain ⟨h123, _⟩ := IntOp.andi_eq_one.1 h0
  obtain ⟨h12, h3⟩ := IntOp.andi_eq_one.1 h123
  obtain ⟨h1, h2⟩ := IntOp.andi_eq_one.1 h12
  exact ⟨real_of_all _ _ _ _ h1, real_of_all _ _ _ _ h2, real_of_all _ _ _ _ h3⟩

end Cert.Finite

end
-- ==== Proof.lean ====
/-
  The certificate of a fused graph-attention layer: x is projected by W; two additive scores per row come from the
  projection against the two rows of a; query n attends key m with weight softmax_m (masked (leaky_relu (q_n + k_m)));
  the result is the weighted sum of the projected features plus a bias.  The kernel caches a batch's projection and
  scores at the batch's first query tile, reuses them for the later tiles, and multiplies the unnormalised weighted
  sum by the reciprocal of the row's normaliser; the reference normalises the weights first.  Over the extended
  reals the two agree once x, W and a are finite: every intermediate value is then a real, the normaliser a positive
  real, and dividing each weight by it distributes over the finite sum against the features.

  The frames of the two kernel programs are their generated runs; the reference's frame is its run with the result
  dropped; the ideal pass rewrote nothing, so the idealization claim is trivial.
-/
import proofs.«424068_j66374424592902_3_alg».proof.Defs
import proofs.«424068_j66374424592902_3_alg».proof.Proof.Gen.Kernel.Frame
import proofs.«424068_j66374424592902_3_alg».proof.Proof.Gen.KernelIdeal.Frame
import proofs.«424068_j66374424592902_3_alg».proof.Proof.KFinal
import proofs.«424068_j66374424592902_3_alg».proof.Proof.RefRun
import proofs.«424068_j66374424592902_3_alg».proof.Proof.RefReadA
import proofs.«424068_j66374424592902_3_alg».proof.Proof.Algebra
import proofs.«424068_j66374424592902_3_alg».proof.Proof.Finite

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- The kernel's result array ends at the specification's function with the weights normalised after the product
    (its run), the reference's at the one with the weights normalised before it (its run, read entry by entry), of
    arguments that agree; under the precondition the two functions are equal. -/
theorem algebraic : Cert.algebraic_KernelIdeal_ReferenceIdeal := by
  intro m ρ m' ρ' hpre hagree
  refine ⟨fun c => Cert.KernelIdeal.KFinal.G m c, Cert.KernelIdeal.KFinal.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2, Cert.RefRead.refOut_eq]
  funext j
  obtain ⟨hx, hW, ha⟩ := Cert.Finite.real_of_pre m hpre c
  exact (Cert.Spec.outK_eq_outR _ _ _ _ _ hx hW ha (j 0) (j 1) (j 2)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
